-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S64x3x512x512 .f32) (main_arg1 : FVec F S192x128 .f32) (main_arg2 : FVec F S128 .f32) (main_arg3 : FVec F S128x128 .f32) (main_arg4 : FVec F S128 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S192x128 .f32 := Host.absf main_arg1
  let main_cst_0 : FVec F S_ .f32 := constant S_ .f32 0x7F800000#32
  let main_v5 : FVec F S192x128 .f32 := broadcastInDim S192x128 ![] bcast_S_S192x128 main_cst_0
  let main_v6 : IVec S192x128 1 := cmpf .olt main_v4 main_v5
  let main_c_1 : IVec S_ 1 := constantI S_ 1 1#1
  let main_v7 : IVec S_ 1 := (fun x v => Host.reduce IntOp.andi x v reducesTo_S192x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S64x3x512x512 : Shape := ⟨4, ![64, 3, 512, 512]⟩
abbrev S192x128 : Shape := ⟨2, ![192, 128]⟩
abbrev S128 : Shape := ⟨1, ![128]⟩
abbrev S128x128 : Shape := ⟨2, ![128, 128]⟩
abbrev S64x3x64 : Shape := ⟨3, ![64, 3, 64]⟩
abbrev S8x3x64x512 : Shape := ⟨4, ![8, 3, 64, 512]⟩
abbrev S8x3x64 : Shape := ⟨3, ![8, 3, 64]⟩
abbrev S8x3 : Shape := ⟨2, ![8, 3]⟩
abbrev S8x3x1 : Shape := ⟨3, ![8, 3, 1]⟩
abbrev S64x192 : Shape := ⟨2, ![64, 192]⟩
abbrev S64x128 : Shape := ⟨2, ![64, 128]⟩
abbrev S64 : Shape := ⟨1, ![64]⟩
abbrev S64x1 : Shape := ⟨2, ![64, 1]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S64x3x512x512, .f32⟩
  | .hbm, ⟨1, _⟩ => ⟨S192x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S64x3x64, .f32⟩
  | .hbm, ⟨6, _⟩ => ⟨S64x192, .f32⟩
  | .hbm, ⟨7, _⟩ => ⟨S64x128, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64, .f32⟩
  | .local _ .vmem, ⟨3, _⟩ => ⟨S8x3x64, .f32⟩
  | .local _ .vmem, ⟨4, _⟩ => ⟨S64x192, .f32⟩
  | .local _ .vmem, ⟨5, _⟩ => ⟨S192x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S64x128, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S8x3x64_S8x3x64_0_0_0 : ∀ a, (![0, 0, 0] : Fin 3 → Nat) a + S8x3x64.size a ≤ S8x3x64.size a
  h_S8x3x64 : 0 < S8x3x64.numel
  inb_S8x3x64x512_S8x3x64x512_0_0_0_0 : ∀ a, (![0, 0, 0, 0] : Fin 4 → Nat) a + S8x3x64x512.size a ≤ S8x3x64x512.size a
  h_S8x3x64x512 : 0 < S8x3x64x512.numel
  natLt_1_32 : 1 < 32
  reduces_S8x3x64x512_S8x3x64 : S8x3x64x512.Reduces [3] S8x3x64
  reduces_S8x3x64_S8x3 : S8x3x64.Reduces [2] S8x3
  inb_S8x3x64_S8x3x1_0_0_0 : ∀ a, (![0, 0, 0] : Fin 3 → Nat) a + S8x3x1.size a ≤ S8x3x64.size a
  h_S8x3x1 : 0 < S8x3x1.numel
  shapeCasts_S8x3x1_S8x3 : S8x3x1.ShapeCasts S8x3
  shapeCasts_S8x3_S8x3x1 : S8x3.ShapeCasts S8x3x1
  inb_S8x3x64_S8x3x1_0_0_1 : ∀ a, (![0, 0, 1] : Fin 3 → Nat) a + S8x3x1.size a ≤ S8x3x64.size a
  inb_S8x3x64_S8x3x1_0_0_2 : ∀ a, (![0, 0, 2] : Fin 3 → Nat) a + S8x3x1.size a ≤ S8x3x64.size a
  inb_S8x3x64_S8x3x1_0_0_3 : ∀ a, (![0, 0, 3] : Fin 3 → Nat) a + S8x3x1.size a ≤ S8x3x64.size a
  inb_S8x3x64_S8x3x1_0_0_4 : ∀ a, (![0, 0, 4] : Fin 3 → Nat) a + S8x3x1.size a ≤ S8x3x64.size a
  inb_S8x3x64_S8x3x1_0_0_5 : ∀ a, (![0, 0, 5] : Fin 3 → Nat) a + S8x3x1.size a ≤ S8x3x64.size a
  inb_S8x3x64_S8x3x1_0_0_6 : ∀ a, (![0, 0, 6] : Fin 3 → Nat) a + S8x3x1.size a ≤ S8x3x64.size a
  inb_S8x3x64_S8x3x1_0_0_7 : ∀ a, (![0, 0, 7] : Fin 3 → Nat) a + S8x3x1.size a ≤ S8x3x64.size a
  inb_S8x3x64_S8x3x1_0_0_8 : ∀ a, (![0, 0, 8] : Fin 3 → Nat) a + S8x3x1.size a ≤ S8x3x64.size a
  inb_S8x3x64_S8x3x1_0_0_9 : ∀ a, (![0, 0, 9] : Fin 3 → Nat) a + S8x3x1.size a ≤ S8x3x64.size a
  inb_S8x3x64_S8x3x1_0_0_10 : ∀ a, (![0, 0, 10] : Fin 3 → Nat) a + S8x3x1.size a ≤ S8x3x64.size a
  inb_S8x3x64_S8x3x1_0_0_11 : ∀ a, (![0, 0, 11] : Fin 3 → Nat) a + S8x3x1.size a ≤ S8x3x64.size a
  inb_S8x3x64_S8x3x1_0_0_12 : ∀ a, (![0, 0, 12] : Fin 3 → Nat) a + S8x3x1.size a ≤ S8x3x64.size a
  inb_S8x3x64_S8x3x1_0_0_13 : ∀ a, (![0, 0, 13] : Fin 3 → Nat) a + S8x3x1.size a ≤ S8x3x64.size a
  inb_S8x3x64_S8x3x1_0_0_14 : ∀ a, (![0, 0, 14] : Fin 3 → Nat) a + S8x3x1.size a ≤ S8x3x64.size a
  inb_S8x3x64_S8x3x1_0_0_15 : ∀ a, (![0, 0, 15] : Fin 3 → Nat) a + S8x3x1.size a ≤ S8x3x64.size a
  inb_S8x3x64_S8x3x1_0_0_16 : ∀ a, (![0, 0, 16] : Fin 3 → Nat) a + S8x3x1.size a ≤ S8x3x64.size a
  inb_S8x3x64_S8x3x1_0_0_17 : ∀ a, (![0, 0, 17] : Fin 3 → Nat) a + S8x3x1.size a ≤ S8x3x64.size a
  inb_S8x3x64_S8x3x1_0_0_18 : ∀ a, (![0, 0, 18] : Fin 3 → Nat) a + S8x3x1.size a ≤ S8x3x64.size a
  inb_S8x3x64_S8x3x1_0_0_19 : ∀ a, (![0, 0, 19] : Fin 3 → Nat) a + S8x3x1.size a ≤ S8x3x64.size a
  inb_S8x3x64_S8x3x1_0_0_20 : ∀ a, (![0, 0, 20] : Fin 3 → Nat) a + S8x3x1.size a ≤ S8x3x64.size a
  inb_S8x3x64_S8x3x1_0_0_21 : ∀ a, (![0, 0, 21] : Fin 3 → Nat) a + S8x3x1.size a ≤ S8x3x64.size a
  inb_S8x3x64_S8x3x1_0_0_22 : ∀ a, (![0, 0, 22] : Fin 3 → Nat) a + S8x3x1.size a ≤ S8x3x64.size a
  inb_S8x3x64_S8x3x1_0_0_23 : ∀ a, (![0, 0, 23] : Fin 3 → Nat) a + S8x3x1.size a ≤ S8x3x64.size a
  inb_S8x3x64_S8x3x1_0_0_24 : ∀ a, (![0, 0, 24] : Fin 3 → Nat) a + S8x3x1.size a ≤ S8x3x64.size a
  inb_S8x3x64_S8x3x1_0_0_25 : ∀ a, (![0, 0, 25] : Fin 3 → Nat) a + S8x3x1.size a ≤ S8x3x64.size a
  inb_S8x3x64_S8x3x1_0_0_26 : ∀ a, (![0, 0, 26] : Fin 3 → Nat) a + S8x3x1.size a ≤ S8x3x64.size a
  inb_S8x3x64_S8x3x1_0_0_27 : ∀ a, (![0, 0, 27] : Fin 3 → Nat) a + S8x3x1.size a ≤ S8x3x64.size a
  inb_S8x3x64_S8x3x1_0_0_28 : ∀ a, (![0, 0, 28] : Fin 3 → Nat) a + S8x3x1.size a ≤ S8x3x64.size a
  inb_S8x3x64_S8x3x1_0_0_29 : ∀ a, (![0, 0, 29] : Fin 3 → Nat) a + S8x3x1.size a ≤ S8x3x64.size a
  inb_S8x3x64_S8x3x1_0_0_30 : ∀ a, (![0, 0, 30] : Fin 3 → Nat) a + S8x3x1.size a ≤ S8x3x64.size a
  inb_S8x3x64_S8x3x1_0_0_31 : ∀ a, (![0, 0, 31] : Fin 3 → Nat) a + S8x3x1.size a ≤ S8x3x64.size a
  inb_S8x3x64_S8x3x1_0_0_32 : ∀ a, (![0, 0, 32] : Fin 3 → Nat) a + S8x3x1.size a ≤ S8x3x64.size a
  inb_S8x3x64_S8x3x1_0_0_33 : ∀ a, (![0, 0, 33] : Fin 3 → Nat) a + S8x3x1.size a ≤ S8x3x64.size a
  inb_S8x3x64_S8x3x1_0_0_34 : ∀ a, (![0, 0, 34] : Fin 3 → Nat) a + S8x3x1.size a ≤ S8x3x64.size a
  inb_S8x3x64_S8x3x1_0_0_35 : ∀ a, (![0, 0, 35] : Fin 3 → Nat) a + S8x3x1.size a ≤ S8x3x64.size a
  inb_S8x3x64_S8x3x1_0_0_36 : ∀ a, (![0, 0, 36] : Fin 3 → Nat) a + S8x3x1.size a ≤ S8x3x64.size a
  inb_S8x3x64_S8x3x1_0_0_37 : ∀ a, (![0, 0, 37] : Fin 3 → Nat) a + S8x3x1.size a ≤ S8x3x64.size a
  inb_S8x3x64_S8x3x1_0_0_38 : ∀ a, (![0, 0, 38] : Fin 3 → Nat) a + S8x3x1.size a ≤ S8x3x64.size a
  inb_S8x3x64_S8x3x1_0_0_39 : ∀ a, (![0, 0, 39] : Fin 3 → Nat) a + S8x3x1.size a ≤ S8x3x64.size a
  inb_S8x3x64_S8x3x1_0_0_40 : ∀ a, (![0, 0, 40] : Fin 3 → Nat) a + S8x3x1.size a ≤ S8x3x64.size a
  inb_S8x3x64_S8x3x1_0_0_41 : ∀ a, (![0, 0, 41] : Fin 3 → Nat) a + S8x3x1.size a ≤ S8x3x64.size a
  inb_S8x3x64_S8x3x1_0_0_42 : ∀ a, (![0, 0, 42] : Fin 3 → Nat) a + S8x3x1.size a ≤ S8x3x64.size a
  inb_S8x3x64_S8x3x1_0_0_43 : ∀ a, (![0, 0, 43] : Fin 3 → Nat) a + S8x3x1.size a ≤ S8x3x64.size a
  inb_S8x3x64_S8x3x1_0_0_44 : ∀ a, (![0, 0, 44] : Fin 3 → Nat) a + S8x3x1.size a ≤ S8x3x64.size a
  inb_S8x3x64_S8x3x1_0_0_45 : ∀ a, (![0, 0, 45] : Fin 3 → Nat) a + S8x3x1.size a ≤ S8x3x64.size a
  inb_S8x3x64_S8x3x1_0_0_46 : ∀ a, (![0, 0, 46] : Fin 3 → Nat) a + S8x3x1.size a ≤ S8x3x64.size a
  inb_S8x3x64_S8x3x1_0_0_47 : ∀ a, (![0, 0, 47] : Fin 3 → Nat) a + S8x3x1.size a ≤ S8x3x64.size a
  inb_S8x3x64_S8x3x1_0_0_48 : ∀ a, (![0, 0, 48] : Fin 3 → Nat) a + S8x3x1.size a ≤ S8x3x64.size a
  inb_S8x3x64_S8x3x1_0_0_49 : ∀ a, (![0, 0, 49] : Fin 3 → Nat) a + S8x3x1.size a ≤ S8x3x64.size a
  inb_S8x3x64_S8x3x1_0_0_50 : ∀ a, (![0, 0, 50] : Fin 3 → Nat) a + S8x3x1.size a ≤ S8x3x64.size a
  inb_S8x3x64_S8x3x1_0_0_51 : ∀ a, (![0, 0, 51] : Fin 3 → Nat) a + S8x3x1.size a ≤ S8x3x64.size a
  inb_S8x3x64_S8x3x1_0_0_52 : ∀ a, (![0, 0, 52] : Fin 3 → Nat) a + S8x3x1.size a ≤ S8x3x64.size a
  inb_S8x3x64_S8x3x1_0_0_53 : ∀ a, (![0, 0, 53] : Fin 3 → Nat) a + S8x3x1.size a ≤ S8x3x64.size a
  inb_S8x3x64_S8x3x1_0_0_54 : ∀ a, (![0, 0, 54] : Fin 3 → Nat) a + S8x3x1.size a ≤ S8x3x64.size a
  inb_S8x3x64_S8x3x1_0_0_55 : ∀ a, (![0, 0, 55] : Fin 3 → Nat) a + S8x3x1.size a ≤ S8x3x64.size a
  inb_S8x3x64_S8x3x1_0_0_56 : ∀ a, (![0, 0, 56] : Fin 3 → Nat) a + S8x3x1.size a ≤ S8x3x64.size a
  inb_S8x3x64_S8x3x1_0_0_57 : ∀ a, (![0, 0, 57] : Fin 3 → Nat) a + S8x3x1.size a ≤ S8x3x64.size a
  inb_S8x3x64_S8x3x1_0_0_58 : ∀ a, (![0, 0, 58] : Fin 3 → Nat) a + S8x3x1.size a ≤ S8x3x64.size a
  inb_S8x3x64_S8x3x1_0_0_59 : ∀ a, (![0, 0, 59] : Fin 3 → Nat) a + S8x3x1.size a ≤ S8x3x64.size a
  inb_S8x3x64_S8x3x1_0_0_60 : ∀ a, (![0, 0, 60] : Fin 3 → Nat) a + S8x3x1.size a ≤ S8x3x64.size a
  inb_S8x3x64_S8x3x1_0_0_61 : ∀ a, (![0, 0, 61] : Fin 3 → Nat) a + S8x3x1.size a ≤ S8x3x64.size a
  inb_S8x3x64_S8x3x1_0_0_62 : ∀ a, (![0, 0, 62] : Fin 3 → Nat) a + S8x3x1.size a ≤ S8x3x64.size a
  inb_S8x3x64_S8x3x1_0_0_63 : ∀ a, (![0, 0, 63] : Fin 3 → Nat) a + S8x3x1.size a ≤ S8x3x64.size a
  shapeCasts_S64x3x64_S64x192 : S64x3x64.ShapeCasts S64x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  reduces_S64x192_S64 : S64x192.Reduces [1] S64
  shapeCasts_S64_S64x1 : S64.ShapeCasts S64x1
  broadcasts_S64x1_S64x192 : S64x1.Broadcasts S64x192
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  dot_S64x192_S192x128_S64x128_1_0_0_1_n_n_wf : DotDims.WF S64x192 S192x128 S64x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S64x3x512x512.size a
  hwx0_0 : ∀ i : grid0.Coords, EltTy.bits .f32 = 32 ∨ (Rect.block (s := S64x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64.size a ≤ S64x3x64.size a
  hwx0_1 : ∀ i : grid0.Coords, EltTy.bits .f32 = 32 ∨ (Rect.block (s := S64x3x64) S8x3x64.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x192.size a ≤ S64x192.size a
  hwx1_0 : ∀ i : grid1.Coords, EltTy.bits .f32 = 32 ∨ (Rect.block (s := S64x192) S64x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .f32 = 32 ∨ (Rect.block (s := S192x128) S192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)

variable [Facts₀]

def dot_S64x192_S192x128_S64x128_1_0_0_1_n_n : DotDims S64x192 S192x128 S64x128 where
  lhsContracting := [1]
  rhsContracting := [0]
  lhsNonContracting := [0]
  rhsNonContracting := [1]
  lhsBatch := []
  rhsBatch := []
  wf := dot_S64x192_S192x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x3x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S64x192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S64x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x3x512x512 : Shape := ⟨4, ![64, 3, 512, 512]⟩
abbrev S192x128 : Shape := ⟨2, ![192, 128]⟩
abbrev S128 : Shape := ⟨1, ![128]⟩
abbrev S128x128 : Shape := ⟨2, ![128, 128]⟩
abbrev S_ : Shape := ⟨0, ![]⟩
abbrev S192 : Shape := ⟨1, ![192]⟩
abbrev S192x1 : Shape := ⟨2, ![192, 1]⟩
abbrev S192x262144 : Shape := ⟨2, ![192, 262144]⟩
abbrev S50331648 : Shape := ⟨1, ![50331648]⟩
abbrev S12288 : Shape := ⟨1, ![12288]⟩
abbrev S50331648x1 : Shape := ⟨2, ![50331648, 1]⟩
abbrev S64x192 : Shape := ⟨2, ![64, 192]⟩
abbrev S64 : Shape := ⟨1, ![64]⟩
abbrev S64x1 : Shape := ⟨2, ![64, 1]⟩
abbrev S64x128 : Shape := ⟨2, ![64, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S192x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S64x3x512x512, .f32⟩
  | .hbm, ⟨7, _⟩ => ⟨S64x3x512x512, .f32⟩
  | .hbm, ⟨8, _⟩ => ⟨S_, .f32⟩
  | .hbm, ⟨9, _⟩ => ⟨S64x3x512x512, .f32⟩
  | .hbm, ⟨10, _⟩ => ⟨S64x3x512x512, .f32⟩
  | .hbm, ⟨11, _⟩ => ⟨S64x3x512x512, .f32⟩
  | .hbm, ⟨12, _⟩ => ⟨S64x3x512x512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x3x512x512, .i32⟩
  | .hbm, ⟨17, _⟩ => ⟨S64x3x512x512, .i32⟩
  | .hbm, ⟨18, _⟩ => ⟨S_, .i32⟩
  | .hbm, ⟨19, _⟩ => ⟨S64x3x512x512, .i32⟩
  | .hbm, ⟨20, _⟩ => ⟨S64x3x512x512, .i32⟩
  | .hbm, ⟨21, _⟩ => ⟨S192, .i32⟩
  | .hbm, ⟨22, _⟩ => ⟨S_, .i32⟩
  | .hbm, ⟨23, _⟩ => ⟨S192, .i32⟩
  | .hbm, ⟨24, _⟩ => ⟨S192, .i32⟩
  | .hbm, ⟨25, _⟩ => ⟨S192x1, .i32⟩
  | .hbm, ⟨26, _⟩ => ⟨S192x262144, .i32⟩
  | .hbm, ⟨27, _⟩ => ⟨S192x262144, .i32⟩
  | .hbm, ⟨28, _⟩ => ⟨S192x262144, .i32⟩
  | .hbm, ⟨29, _⟩ => ⟨S50331648, .i32⟩
  | .hbm, ⟨30, _⟩ => ⟨S_, .f32⟩
  | .hbm, ⟨31, _⟩ => ⟨S12288, .f32⟩
  | .hbm, ⟨32, _⟩ => ⟨S_, .i32⟩
  | .hbm, ⟨33, _⟩ => ⟨S50331648, .i32⟩
  | .hbm, ⟨34, _⟩ => ⟨S50331648, .i1⟩
  | .hbm, ⟨35, _⟩ => ⟨S_, .i32⟩
  | .hbm, ⟨36, _⟩ => ⟨S50331648, .i32⟩
  | .hbm, ⟨37, _⟩ => ⟨S50331648, .i32⟩
  | .hbm, ⟨38, _⟩ => ⟨S50331648, .i32⟩
  | .hbm, ⟨39, _⟩ => ⟨S50331648x1, .i32⟩
  | .hbm, ⟨40, _⟩ => ⟨S_, .f32⟩
  | .hbm, ⟨41, _⟩ => ⟨S50331648, .f32⟩
  | .hbm, ⟨42, _⟩ => ⟨S12288, .f32⟩
  | .hbm, ⟨43, _⟩ => ⟨S64x192, .f32⟩
  | .hbm, ⟨44, _⟩ => ⟨S64x192, .f32⟩
  | .hbm, ⟨45, _⟩ => ⟨S_, .f32⟩
  | .hbm, ⟨46, _⟩ => ⟨S64, .f32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x192, .f32⟩
  | .hbm, ⟨52, _⟩ => ⟨S64x192, .f32⟩
  | .hbm, ⟨53, _⟩ => ⟨S64x128, .f32⟩
  | .hbm, ⟨54, _⟩ => ⟨S1x128, .f32⟩
  | .hbm, ⟨55, _⟩ => ⟨S64x128, .f32⟩
  | .hbm, ⟨56, _⟩ => ⟨S64x128, .f32⟩
  | .hbm, ⟨57, _⟩ => ⟨S_, .f32⟩
  | .hbm, ⟨58, _⟩ => ⟨S64x128, .f32⟩
  | .hbm, ⟨59, _⟩ => ⟨S64x128, .f32⟩
  | .hbm, ⟨60, _⟩ => ⟨S64x128, .f32⟩
  | .hbm, ⟨61, _⟩ => ⟨S1x128, .f32⟩
  | .hbm, ⟨62, _⟩ => ⟨S64x128, .f32⟩
  | .hbm, ⟨63, _⟩ => ⟨S64x128, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  bcast_S_S192 : S_.BroadcastsInDim S192 (![] : Fin 0 → Fin S192.rank)
  bcast_S192_S192x1_0 : S192.BroadcastsInDim S192x1 (![0] : Fin 1 → Fin S192x1.rank)
  shapeCasts_S64x3x512x512_S192x262144 : S64x3x512x512.ShapeCasts S192x262144
  bcast_S192x1_S192x262144_0_1 : S192x1.BroadcastsInDim S192x262144 (![0, 1] : Fin 2 → Fin S192x262144.rank)
  shapeCasts_S192x262144_S50331648 : S192x262144.ShapeCasts S50331648
  bcast_S_S12288 : S_.BroadcastsInDim S12288 (![] : Fin 0 → Fin S12288.rank)
  bcast_S_S50331648 : S_.BroadcastsInDim S50331648 (![] : Fin 0 → Fin S50331648.rank)
  bcast_S50331648_S50331648x1_0 : S50331648.BroadcastsInDim S50331648x1 (![0] : Fin 1 → Fin S50331648x1.rank)
  shapeCasts_S12288_S64x192 : S12288.ShapeCasts S64x192
  reducesTo_S64x192_S64_d1 : S64x192.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x192_0_1 : S64x1.BroadcastsInDim S64x192 (![0, 1] : Fin 2 → Fin S64x192.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  scatter_S12288_S50331648x1_S50331648_n_0_0_1_wf : ScatterDims.WF S12288 S50331648x1 S50331648 [] [0] [0] 1
  dot_S64x192_S192x128_S64x128_1_0_0_1_n_n_wf : DotDims.WF S64x192 S192x128 S64x128 [1] [0] [0] [1] [] []
  dot_S64x128_S128x128_S64x128_1_0_0_1_n_n_wf : DotDims.WF S64x128 S128x128 S64x128 [1] [0] [0] [1] [] []

variable [Facts₀]

def scatter_S12288_S50331648x1_S50331648_n_0_0_1 : ScatterDims S12288 S50331648x1 S50331648 where
  updateWindowDims := []
  insertedWindowDims := [0]
  scatterDimsToOperandDims := [0]
  indexVectorDim := 1
  wf := scatter_S12288_S50331648x1_S50331648_n_0_0_1_wf
def dot_S64x192_S192x128_S64x128_1_0_0_1_n_n : DotDims S64x192 S192x128 S64x128 where
  lhsContracting := [1]
  rhsContracting := [0]
  lhsNonContracting := [0]
  rhsNonContracting := [1]
  lhsBatch := []
  rhsBatch := []
  wf := dot_S64x192_S192x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.Spec.lean ====
/-
  The mathematics both programs compute, as functions of the argument arrays over the extended reals.

  A pixel value x falls in bin  clip(⌊x · 255 · (64/255)⌋, 0, 63)  (the two factors are the f32 words of 255 and of
  64/255, applied one after the other; the integer conversion rounds toward zero and clamps, then the word is clipped
  to [0, 63] as a signed word). For image b and channel c the histogram entry (b, c, k) is the number of the 512 × 512
  pixels whose bin is k, a sum of ones. The 64 × 3 × 64 histogram read as a 64 × 192 matrix (row b, column c·64 + k)
  is normalised by  max(‖row‖₁, 1e-12)  and passed through two dense layers: relu(h·W₁ + b₁)·W₂ + b₂.
-/
import Idealize.ShloMosaic.PureOps.Ideal
import Idealize.ShloMosaic.Lib.ValueIdx

noncomputable section

open scoped BigOperators

namespace Cert.HistSpec

open Idealize.ShloMosaic Idealize.ShloMosaic.ValueIdx

abbrev SX : Shape := ⟨4, ![64, 3, 512, 512]⟩
abbrev SH : Shape := ⟨3, ![64, 3, 64]⟩
abbrev SH2 : Shape := ⟨2, ![64, 192]⟩
abbrev SW1 : Shape := ⟨2, ![192, 128]⟩
abbrev SW2 : Shape := ⟨2, ![128, 128]⟩
abbrev SB : Shape := ⟨1, ![128]⟩
abbrev SO : Shape := ⟨2, ![64, 128]⟩

/-- The bin of a pixel value, as a 32-bit word: ⌊x · 255 · (64/255)⌋ converted to an integer and clipped to [0, 63]. -/
def binWord (x : EReal) : BitVec 32 :=
  IntOp.minsi 63#32 (IntOp.maxsi 0#32
    (Ideal.fptosi 32 (Ideal.liftRound Int.floor (x * Ideal.ofBits .f32 0x437F0000#32 * Ideal.ofBits .f32 0x3E808081#32))))

/-- One if the two words are equal, else zero. -/
def ind (w b : BitVec 32) : EReal := if w = b then 1 else 0

/-- The number of pixels of image `b`, channel `c` whose bin is `k`. -/
def count (x : SX.Idx → EReal) (b : Fin 64) (c : Fin 3) (k : Fin 64) : EReal :=
  ∑ h : Fin 512, ∑ w : Fin 512, ind (binWord (x (ix4 b c h w))) (BitVec.ofNat 32 k.val)

/-- The same count over one tile of 8 images × 3 channels × 64 rows × 512 columns: the pixels of rows `r`, all columns, of
    the tile's image `p`, channel `q`, whose bin is `k`. -/
def tileCount (x0 : (⟨4, ![8, 3, 64, 512]⟩ : Shape).Idx → EReal) (p : Fin 8) (q : Fin 3) (k : Fin 64) : EReal :=
  ∑ r : Fin 64, ∑ w : Fin 512, ind (binWord (x0 (ix4 p q r w))) (BitVec.ofNat 32 k.val)

/-- The histogram as a 64 × 3 × 64 array. -/
def hist (x : SX.Idx → EReal) : SH.Idx → EReal := fun j => count x (j 0) (j 1) (j 2)

theorem hist_apply (x : SX.Idx → EReal) (b : Fin 64) (c : Fin 3) (k : Fin 64) : hist x (ix3 b c k) = count x b c k := rfl

/-- The histogram as a 64 × 192 matrix: column `j` is channel `j / 64`, bin `j % 64`. -/
def hist2 (x : SX.Idx → EReal) : SH2.Idx → EReal := fun j =>
  count x (j 0) ⟨(j 1).val / 64, by have h : (j 1).val < 192 := (j 1).isLt; show (j 1).val / 64 < 3; omega⟩
    ⟨(j 1).val % 64, Nat.mod_lt _ (by decide)⟩

theorem hist2_apply (x : SX.Idx → EReal) (a : Fin 64) (j : Fin 192) :
    hist2 x (ix2 a j) = count x a ⟨j.val / 64, by have := j.isLt; omega⟩ ⟨j.val % 64, Nat.mod_lt _ (by decide)⟩ := rfl

/-- The L1 norm of row `a`. -/
def l1 (h : SH2.Idx → EReal) (a : Fin 64) : EReal := ∑ k : Fin 192, FloatOps.absf (F := Ideal) (φ := .f32) (h (ix2 a k))

/-- The normalised matrix: each entry over max(‖row‖₁, 1e-12). -/
def normed (h : SH2.Idx → EReal) (a : Fin 64) (k : Fin 192) : EReal :=
  Ideal.div (h (ix2 a k)) (max (l1 h a) (Ideal.ofBits .f32 0x2B8CBCCC#32))

/-- The hidden layer: relu(normed · W₁ + b₁). -/
def hidden (h : SH2.Idx → EReal) (W1 : SW1.Idx → EReal) (b1 : SB.Idx → EReal) (a : Fin 64) (j : Fin 128) : EReal :=
  max ((∑ k : Fin 192, normed h a k * W1 (ix2 k j)) + b1 (ix1 j)) (Ideal.ofBits .f32 0x00000000#32)

/-- The output layer: hidden · W₂ + b₂, as a 64 × 128 array. -/
def mlp (h : SH2.Idx → EReal) (W1 : SW1.Idx → EReal) (b1 : SB.Idx → EReal) (W2 : SW2.Idx → EReal) (b2 : SB.Idx → EReal) :
    SO.Idx → EReal := fun i =>
  (∑ k : Fin 128, hidden h W1 b1 (i 0) k * W2 (ix2 k (i 1))) + b2 (ix1 (i 1))

theorem mlp_apply (h : SH2.Idx → EReal) (W1 : SW1.Idx → EReal) (b1 : SB.Idx → EReal) (W2 : SW2.Idx → EReal) (b2 : SB.Idx → EReal)
    (a : Fin 64) (j : Fin 128) :
    mlp h W1 b1 W2 b2 (ix2 a j) = (∑ k : Fin 128, hidden h W1 b1 a k * W2 (ix2 k j)) + b2 (ix1 j) := rfl

end Cert.HistSpec

end
-- ==== Proof.HistPieces.lean ====
/-
  The first kernel's body on one tile of 8 images × 3 channels × 64 rows × 512 columns, read as mathematics.

  For each of the 64 bins k the body compares the tile's clipped bin words with k, turns the comparison bits into ones and
  zeros, sums them over the columns and then over the rows, and adds the result onto column k of the 8 × 3 × 64 block.
  Read at (p, q, k) that sum is the number of pixels of image p, channel q of the tile whose bin is k. When the tile opens
  an image group the block is zeroed first, so it ends at the tile's counts; otherwise the counts are added onto what the
  block held.
-/
import proofs.«171639_j50053548867780_1_alg».proof.Proof.Gen.KernelIdeal.Frame
import proofs.«171639_j50053548867780_1_alg».proof.Proof.Spec
import Idealize.ShloMosaic.PureOps.Ideal.Laws
import Idealize.ShloMosaic.Lib.Pipeline.Value
import Idealize.ShloMosaic.Lib.KernelVsHost

set_option maxRecDepth 16384

noncomputable section

open scoped BigOperators

namespace Cert.HistPieces

open Idealize.ShloMosaic Idealize.ShloMosaic.TcCoe Idealize.ShloMosaic.ValueIdx Idealize.ShloMosaic.Tactic Idealize.SL.Sem Cert.KernelIdeal Cert.KernelIdeal.Gen Cert.HistSpec

/-- The widened compare bit converted to a float is the indicator of equality. -/
theorem sitofp_bit (w b : BitVec 32) :
    FloatOps.sitofp (F := Ideal) .f32 ((IntOp.cmpi .eq w b).setWidth 32) = ind w b := by
  show ((((BitVec.ofBool (w == b)).setWidth 32).toInt : ℝ) : EReal) = if w = b then 1 else 0
  rw [toInt_setWidth_bit]
  by_cases h : w = b
  · rw [if_pos h, beq_iff_eq.mpr h]
    show (((1 : ℕ) : ℤ) : ℝ) = (1 : EReal)
    norm_cast
  · rw [if_neg h, beq_eq_false_iff_ne.mpr h]
    show (((0 : ℕ) : ℤ) : ℝ) = (0 : EReal)
    norm_cast

/-- One bin's update read at (p, q): the held column's entry plus the number of pixels of row (p, q) of the tile whose
    word is `b`. The two casts between 8 × 3 × 1 and 8 × 3 keep the row-major position; each of the two sums over one axis
    is the sum over that axis's coordinates; the compare bit, widened and converted, is one or zero. -/
theorem bin_apply (idx : IVec S8x3x64x512 32) (col : Vec Ideal S8x3x1 .f32) (b : BitVec 32)
    (h1 : 1 < 32) (hr3 : S8x3x64x512.Reduces [3] S8x3x64) (hr2 : S8x3x64.Reduces [2] S8x3)
    (hc1 : S8x3x1.ShapeCasts S8x3) (hc2 : S8x3.ShapeCasts S8x3x1)
    (hf3 hf2) (ha3 ha2)
    (p : Fin 8) (q : Fin 3) (u : Fin 1) :
    shapeCast S8x3x1 (addf (F := Ideal) (φ := .f32) (shapeCast S8x3 col hc1)
      (multiReduction .add [2] S8x3
        (multiReduction .add [3] S8x3x64 (sitofp .f32 (extui 32 (cmpi .eq idx (broadcast S8x3x64x512 b)) h1))
          0x00000000#32 hr3 hf3 ha3) 0x00000000#32 hr2 hf2 ha2)) hc2 (ix3 p q u)
    = col (ix3 p q u) + ∑ r : Fin 64, ∑ w : Fin 512, ind (idx (ix4 p q r w)) b := by
  have hu : u.val = 0 := by omega
  rw [shapeCast_apply _ hc2 (ix3 p q u) (ix2 p q) (by
    rw [Shape.rowMajor_val_two, Shape.rowMajor_val_three]
    show p.val * 3 + q.val = (p.val * 3 + q.val) * 1 + u.val
    omega)]
  show (shapeCast (α := Ideal .f32) S8x3 col hc1 (ix2 p q)) + _ = _
  rw [shapeCast_apply col hc1 (ix2 p q) (ix3 p q u) (by
    rw [Shape.rowMajor_val_two, Shape.rowMajor_val_three]
    show (p.val * 3 + q.val) * 1 + u.val = p.val * 3 + q.val
    omega)]
  rw [Ideal.multiReduction_add_single]
  congr 1
  refine Finset.sum_congr rfl fun r _ => ?_
  rw [Ideal.multiReduction_add_single]
  refine Finset.sum_congr rfl fun w _ => ?_
  have hix : hr3.lift (hr2.lift (ix2 p q) r) w = ix4 p q r w := by
    funext a
    refine Fin.ext ?_
    match a with
    | ⟨0, _⟩ => rfl
    | ⟨1, _⟩ => rfl
    | ⟨2, _⟩ => rfl
    | ⟨3, _⟩ => rfl
  rw [hix]
  exact sitofp_bit (idx (ix4 p q r w)) b

/-- The clipped bin words of a tile, read at a pixel, are the specification's bin of that pixel. -/
theorem pay3_apply (x0 : Vec Ideal S8x3x64x512 .f32) (j : S8x3x64x512.Idx) :
    k0_pay3 (F := Ideal) x0 j = binWord (x0 j) := rfl

/-- Column `bn` of the block placed in the block: local index (p, q, 0) sits at (p, q, bn). -/
theorem emb_col (bn : ℕ) (hb : bn < 64) (inb : ∀ a, (![0, 0, bn] : Fin 3 → ℕ) a + (![8, 3, 1] : Fin 3 → ℕ) a ≤ S8x3x64.size a)
    (p : Fin 8) (q : Fin 3) (u : Fin 1) :
    (Rect.unit (s := S8x3x64) ![0, 0, bn] ![8, 3, 1] inb).emb (ix3 p q u) = ix3 p q ⟨bn, hb⟩ := by
  have hu : u.val = 0 := by omega
  funext a
  refine Fin.ext ?_
  match a with
  | ⟨0, _⟩ => show 0 + 1 * p.val = p.val; omega
  | ⟨1, _⟩ => show 0 + 1 * q.val = q.val; omega
  | ⟨2, _⟩ => show bn + 1 * u.val = bn; omega

/-- A column's payload that is the held column plus the bin's count agrees with the block's target function. -/
theorem piece_B (x0 : Vec Ideal S8x3x64x512 .f32) (xo1 : Vec Ideal S8x3x64 .f32) (bn : ℕ) (hb : bn < 64)
    (inb : ∀ a, (![0, 0, bn] : Fin 3 → ℕ) a + (![8, 3, 1] : Fin 3 → ℕ) a ≤ S8x3x64.size a)
    (P : Vec Ideal S8x3x1 .f32)
    (hP : ∀ (p : Fin 8) (q : Fin 3) (u : Fin 1), P (ix3 p q u)
      = View.ld xo1 (Rect.unit (s := S8x3x64) ![0, 0, bn] S8x3x1.size inb) (ix3 p q u)
        + ∑ r : Fin 64, ∑ w : Fin 512, ind (k0_pay3 (F := Ideal) x0 (ix4 p q r w)) (BitVec.ofNat 32 bn)) :
    ∀ x : (Rect.unit (s := S8x3x64) ![0, 0, bn] ![8, 3, 1] inb).shape.Idx,
      P x = (fun y : S8x3x64.Idx => xo1 y + tileCount x0 (y 0) (y 1) (y 2))
        ((Rect.unit (s := S8x3x64) ![0, 0, bn] ![8, 3, 1] inb).emb x) := by
  intro x
  obtain ⟨p, q, u, rfl⟩ : ∃ (p : Fin 8) (q : Fin 3) (u : Fin 1), x = ix3 p q u :=
    ⟨x 0, x 1, x 2, eq_ix3 (n0 := 8) (n1 := 3) (n2 := 1) x⟩
  rw [emb_col bn hb inb, hP]
  show xo1 ((Rect.unit (s := S8x3x64) ![0, 0, bn] ![8, 3, 1] inb).emb (ix3 p q u)) + _ = _
  rw [emb_col bn hb inb]
  rfl

/-- The block after the first `k` columns have been stored over the zeroed block: column `b` holds the tile's count of
    bin `b` when `b < k`, and zero otherwise. -/
def ColsDone (x0 : Vec Ideal S8x3x64x512 .f32) (L : List (View.Piece (Elt Ideal) S8x3x64 .f32)) (k : ℕ) : Prop :=
  ∀ (p : Fin 8) (q : Fin 3) (b : Fin 64),
    View.canon L (ix3 p q b) = if b.val < k then tileCount x0 p q b else (0 : EReal)

/-- The zeroed block: no column done. -/
theorem colsDone_zero (x0 : Vec Ideal S8x3x64x512 .f32)
    (inb : ∀ a, (![0, 0, 0] : Fin 3 → ℕ) a + S8x3x64.size a ≤ S8x3x64.size a) :
    ColsDone x0 [⟨Rect.unit (s := S8x3x64) ![0, 0, 0] S8x3x64.size inb, k0_pay2 (F := Ideal)⟩] 0 := by
  intro p q b
  have hz : (![0, 0, 0] : Fin 3 → ℕ) = fun _ => 0 := by
    funext a
    match a with
    | ⟨0, _⟩ => rfl
    | ⟨1, _⟩ => rfl
    | ⟨2, _⟩ => rfl
  rw [View.canon_unit_zero (S := S8x3x64) hz inb, if_neg (Nat.not_lt_zero _)]
  exact Ideal.ofBits_zero_f32

/-- One more column: over a block whose first `k` columns are done, storing into column `k` the column read back
    plus the count of bin `k` leaves the first `k + 1` columns done. -/
theorem colsDone_succ (arg3 : Memref sig .tc .vmem S8x3x64 .f32) (x0 X : Vec Ideal S8x3x64x512 .f32) (hX : X = x0)
    (L : List (View.Piece (Elt Ideal) S8x3x64 .f32)) (k : ℕ) (hk : k < 64)
    (inb : ∀ a, (![0, 0, k] : Fin 3 → ℕ) a + (![8, 3, 1] : Fin 3 → ℕ) a ≤ S8x3x64.size a)
    (P : Vec Ideal S8x3x1 .f32)
    (hJ : ColsDone x0 L k)
    (hP : ∀ (p : Fin 8) (q : Fin 3) (u : Fin 1), P (ix3 p q u)
      = arg3.view.readCov L (Rect.unit (s := S8x3x64) ![0, 0, k] S8x3x1.size inb).toLoadRect (ix3 p q u)
        + ∑ r : Fin 64, ∑ w : Fin 512, ind (k0_pay3 (F := Ideal) X (ix4 p q r w)) (BitVec.ofNat 32 k)) :
    ColsDone x0 (⟨Rect.unit (s := S8x3x64) ![0, 0, k] ![8, 3, 1] inb, P⟩ :: L) (k + 1) := by
  subst hX
  intro p q b
  by_cases hb : b.val = k
  · have hbk : b = ⟨k, hk⟩ := Fin.ext hb
    subst hbk
    have he := emb_col k hk inb p q 0
    rw [← he, View.canon_cons_emb, hP, View.readCov_eq_canon']
    show View.canon L ((Rect.unit (s := S8x3x64) ![0, 0, k] ![8, 3, 1] inb).emb (ix3 p q 0)) + _ = _
    rw [he, hJ p q ⟨k, hk⟩, if_neg (Nat.lt_irrefl k), zero_add, if_pos (Nat.lt_succ_self k)]
    rfl
  · have hnm : ix3 p q b ∉ (Rect.unit (s := S8x3x64) ![0, 0, k] ![8, 3, 1] inb).set := by
      intro hm
      have h2 := (Rect.mem_set_unit.mp hm) 2
      have h2' : k ≤ b.val ∧ b.val < k + 1 := h2
      omega
    rw [View.canon_cons_of_not_mem (⟨Rect.unit (s := S8x3x64) ![0, 0, k] ![8, 3, 1] inb, P⟩ : View.Piece (Elt Ideal) S8x3x64 .f32) L hnm, hJ p q b]
    have hiff : (b.val < k) ↔ (b.val < k + 1) := by omega
    simp only [hiff]

/-- At a tile that opens an image group the body zeroes the block and then adds each bin's count: the block ends at the
    tile's counts. -/
theorem out0_A_1_eq (c : Dev nD) (i : grid0.Coords) (arg2 : Memref sig .tc .vmem S8x3x64x512 .f32) (harg2 : arg2.IsWhole)
    (arg3 : Memref sig .tc .vmem S8x3x64 .f32) (harg3 : arg3.IsWhole) (hc0 : cond0_0 i) (x0 : Vec Ideal S8x3x64x512 .f32) :
    out0_A_1 (F := Ideal) c i arg2 harg2 arg3 harg3 hc0 x0 = fun y => tileCount x0 (y 0) (y 1) (y 2) := by
  have hz : (![0, 0, 0, 0] : Fin 4 → ℕ) = fun _ => 0 := by
    funext a
    match a with
    | ⟨0, _⟩ => rfl
    | ⟨1, _⟩ => rfl
    | ⟨2, _⟩ => rfl
    | ⟨3, _⟩ => rfl
  -- the tile as the body loads it
  have hx : View.readAt (Elt Ideal) arg2.view
      (Rect.unit (s := S8x3x64x512) ![0, 0, 0, 0] S8x3x64x512.size Facts₀.inb_S8x3x64x512_S8x3x64x512_0_0_0_0).toLoadRect
      (harg2.unread x0) = x0 := by
    rw [View.readAt_eq_ld, harg2.read_unread, View.ld_unit_zero (S := S8x3x64x512) hz]
  -- the zeroed block, then one column after another
  have J1 : ColsDone x0 (kernelRun0_A.sl.H1_1 (F := Ideal)) 0 := colsDone_zero x0 _
  have J2 : ColsDone x0 (kernelRun0_A.sl.H1_2 c arg2 harg2 arg3 x0) 1 :=
    colsDone_succ arg3 x0 _ hx _ 0 (by omega) _ _ J1 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J3 : ColsDone x0 (kernelRun0_A.sl.H1_3 c arg2 harg2 arg3 x0) 2 :=
    colsDone_succ arg3 x0 _ hx _ 1 (by omega) _ _ J2 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J4 : ColsDone x0 (kernelRun0_A.sl.H1_4 c arg2 harg2 arg3 x0) 3 :=
    colsDone_succ arg3 x0 _ hx _ 2 (by omega) _ _ J3 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J5 : ColsDone x0 (kernelRun0_A.sl.H1_5 c arg2 harg2 arg3 x0) 4 :=
    colsDone_succ arg3 x0 _ hx _ 3 (by omega) _ _ J4 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J6 : ColsDone x0 (kernelRun0_A.sl.H1_6 c arg2 harg2 arg3 x0) 5 :=
    colsDone_succ arg3 x0 _ hx _ 4 (by omega) _ _ J5 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J7 : ColsDone x0 (kernelRun0_A.sl.H1_7 c arg2 harg2 arg3 x0) 6 :=
    colsDone_succ arg3 x0 _ hx _ 5 (by omega) _ _ J6 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J8 : ColsDone x0 (kernelRun0_A.sl.H1_8 c arg2 harg2 arg3 x0) 7 :=
    colsDone_succ arg3 x0 _ hx _ 6 (by omega) _ _ J7 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J9 : ColsDone x0 (kernelRun0_A.sl.H1_9 c arg2 harg2 arg3 x0) 8 :=
    colsDone_succ arg3 x0 _ hx _ 7 (by omega) _ _ J8 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J10 : ColsDone x0 (kernelRun0_A.sl.H1_10 c arg2 harg2 arg3 x0) 9 :=
    colsDone_succ arg3 x0 _ hx _ 8 (by omega) _ _ J9 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J11 : ColsDone x0 (kernelRun0_A.sl.H1_11 c arg2 harg2 arg3 x0) 10 :=
    colsDone_succ arg3 x0 _ hx _ 9 (by omega) _ _ J10 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J12 : ColsDone x0 (kernelRun0_A.sl.H1_12 c arg2 harg2 arg3 x0) 11 :=
    colsDone_succ arg3 x0 _ hx _ 10 (by omega) _ _ J11 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J13 : ColsDone x0 (kernelRun0_A.sl.H1_13 c arg2 harg2 arg3 x0) 12 :=
    colsDone_succ arg3 x0 _ hx _ 11 (by omega) _ _ J12 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J14 : ColsDone x0 (kernelRun0_A.sl.H1_14 c arg2 harg2 arg3 x0) 13 :=
    colsDone_succ arg3 x0 _ hx _ 12 (by omega) _ _ J13 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J15 : ColsDone x0 (kernelRun0_A.sl.H1_15 c arg2 harg2 arg3 x0) 14 :=
    colsDone_succ arg3 x0 _ hx _ 13 (by omega) _ _ J14 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J16 : ColsDone x0 (kernelRun0_A.sl.H1_16 c arg2 harg2 arg3 x0) 15 :=
    colsDone_succ arg3 x0 _ hx _ 14 (by omega) _ _ J15 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J17 : ColsDone x0 (kernelRun0_A.sl.H1_17 c arg2 harg2 arg3 x0) 16 :=
    colsDone_succ arg3 x0 _ hx _ 15 (by omega) _ _ J16 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J18 : ColsDone x0 (kernelRun0_A.sl.H1_18 c arg2 harg2 arg3 x0) 17 :=
    colsDone_succ arg3 x0 _ hx _ 16 (by omega) _ _ J17 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J19 : ColsDone x0 (kernelRun0_A.sl.H1_19 c arg2 harg2 arg3 x0) 18 :=
    colsDone_succ arg3 x0 _ hx _ 17 (by omega) _ _ J18 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J20 : ColsDone x0 (kernelRun0_A.sl.H1_20 c arg2 harg2 arg3 x0) 19 :=
    colsDone_succ arg3 x0 _ hx _ 18 (by omega) _ _ J19 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J21 : ColsDone x0 (kernelRun0_A.sl.H1_21 c arg2 harg2 arg3 x0) 20 :=
    colsDone_succ arg3 x0 _ hx _ 19 (by omega) _ _ J20 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J22 : ColsDone x0 (kernelRun0_A.sl.H1_22 c arg2 harg2 arg3 x0) 21 :=
    colsDone_succ arg3 x0 _ hx _ 20 (by omega) _ _ J21 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J23 : ColsDone x0 (kernelRun0_A.sl.H1_23 c arg2 harg2 arg3 x0) 22 :=
    colsDone_succ arg3 x0 _ hx _ 21 (by omega) _ _ J22 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J24 : ColsDone x0 (kernelRun0_A.sl.H1_24 c arg2 harg2 arg3 x0) 23 :=
    colsDone_succ arg3 x0 _ hx _ 22 (by omega) _ _ J23 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J25 : ColsDone x0 (kernelRun0_A.sl.H1_25 c arg2 harg2 arg3 x0) 24 :=
    colsDone_succ arg3 x0 _ hx _ 23 (by omega) _ _ J24 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J26 : ColsDone x0 (kernelRun0_A.sl.H1_26 c arg2 harg2 arg3 x0) 25 :=
    colsDone_succ arg3 x0 _ hx _ 24 (by omega) _ _ J25 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J27 : ColsDone x0 (kernelRun0_A.sl.H1_27 c arg2 harg2 arg3 x0) 26 :=
    colsDone_succ arg3 x0 _ hx _ 25 (by omega) _ _ J26 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J28 : ColsDone x0 (kernelRun0_A.sl.H1_28 c arg2 harg2 arg3 x0) 27 :=
    colsDone_succ arg3 x0 _ hx _ 26 (by omega) _ _ J27 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J29 : ColsDone x0 (kernelRun0_A.sl.H1_29 c arg2 harg2 arg3 x0) 28 :=
    colsDone_succ arg3 x0 _ hx _ 27 (by omega) _ _ J28 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J30 : ColsDone x0 (kernelRun0_A.sl.H1_30 c arg2 harg2 arg3 x0) 29 :=
    colsDone_succ arg3 x0 _ hx _ 28 (by omega) _ _ J29 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J31 : ColsDone x0 (kernelRun0_A.sl.H1_31 c arg2 harg2 arg3 x0) 30 :=
    colsDone_succ arg3 x0 _ hx _ 29 (by omega) _ _ J30 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J32 : ColsDone x0 (kernelRun0_A.sl.H1_32 c arg2 harg2 arg3 x0) 31 :=
    colsDone_succ arg3 x0 _ hx _ 30 (by omega) _ _ J31 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J33 : ColsDone x0 (kernelRun0_A.sl.H1_33 c arg2 harg2 arg3 x0) 32 :=
    colsDone_succ arg3 x0 _ hx _ 31 (by omega) _ _ J32 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J34 : ColsDone x0 (kernelRun0_A.sl.H1_34 c arg2 harg2 arg3 x0) 33 :=
    colsDone_succ arg3 x0 _ hx _ 32 (by omega) _ _ J33 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J35 : ColsDone x0 (kernelRun0_A.sl.H1_35 c arg2 harg2 arg3 x0) 34 :=
    colsDone_succ arg3 x0 _ hx _ 33 (by omega) _ _ J34 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J36 : ColsDone x0 (kernelRun0_A.sl.H1_36 c arg2 harg2 arg3 x0) 35 :=
    colsDone_succ arg3 x0 _ hx _ 34 (by omega) _ _ J35 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J37 : ColsDone x0 (kernelRun0_A.sl.H1_37 c arg2 harg2 arg3 x0) 36 :=
    colsDone_succ arg3 x0 _ hx _ 35 (by omega) _ _ J36 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J38 : ColsDone x0 (kernelRun0_A.sl.H1_38 c arg2 harg2 arg3 x0) 37 :=
    colsDone_succ arg3 x0 _ hx _ 36 (by omega) _ _ J37 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J39 : ColsDone x0 (kernelRun0_A.sl.H1_39 c arg2 harg2 arg3 x0) 38 :=
    colsDone_succ arg3 x0 _ hx _ 37 (by omega) _ _ J38 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J40 : ColsDone x0 (kernelRun0_A.sl.H1_40 c arg2 harg2 arg3 x0) 39 :=
    colsDone_succ arg3 x0 _ hx _ 38 (by omega) _ _ J39 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J41 : ColsDone x0 (kernelRun0_A.sl.H1_41 c arg2 harg2 arg3 x0) 40 :=
    colsDone_succ arg3 x0 _ hx _ 39 (by omega) _ _ J40 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J42 : ColsDone x0 (kernelRun0_A.sl.H1_42 c arg2 harg2 arg3 x0) 41 :=
    colsDone_succ arg3 x0 _ hx _ 40 (by omega) _ _ J41 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J43 : ColsDone x0 (kernelRun0_A.sl.H1_43 c arg2 harg2 arg3 x0) 42 :=
    colsDone_succ arg3 x0 _ hx _ 41 (by omega) _ _ J42 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J44 : ColsDone x0 (kernelRun0_A.sl.H1_44 c arg2 harg2 arg3 x0) 43 :=
    colsDone_succ arg3 x0 _ hx _ 42 (by omega) _ _ J43 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J45 : ColsDone x0 (kernelRun0_A.sl.H1_45 c arg2 harg2 arg3 x0) 44 :=
    colsDone_succ arg3 x0 _ hx _ 43 (by omega) _ _ J44 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J46 : ColsDone x0 (kernelRun0_A.sl.H1_46 c arg2 harg2 arg3 x0) 45 :=
    colsDone_succ arg3 x0 _ hx _ 44 (by omega) _ _ J45 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J47 : ColsDone x0 (kernelRun0_A.sl.H1_47 c arg2 harg2 arg3 x0) 46 :=
    colsDone_succ arg3 x0 _ hx _ 45 (by omega) _ _ J46 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J48 : ColsDone x0 (kernelRun0_A.sl.H1_48 c arg2 harg2 arg3 x0) 47 :=
    colsDone_succ arg3 x0 _ hx _ 46 (by omega) _ _ J47 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J49 : ColsDone x0 (kernelRun0_A.sl.H1_49 c arg2 harg2 arg3 x0) 48 :=
    colsDone_succ arg3 x0 _ hx _ 47 (by omega) _ _ J48 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J50 : ColsDone x0 (kernelRun0_A.sl.H1_50 c arg2 harg2 arg3 x0) 49 :=
    colsDone_succ arg3 x0 _ hx _ 48 (by omega) _ _ J49 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J51 : ColsDone x0 (kernelRun0_A.sl.H1_51 c arg2 harg2 arg3 x0) 50 :=
    colsDone_succ arg3 x0 _ hx _ 49 (by omega) _ _ J50 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J52 : ColsDone x0 (kernelRun0_A.sl.H1_52 c arg2 harg2 arg3 x0) 51 :=
    colsDone_succ arg3 x0 _ hx _ 50 (by omega) _ _ J51 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J53 : ColsDone x0 (kernelRun0_A.sl.H1_53 c arg2 harg2 arg3 x0) 52 :=
    colsDone_succ arg3 x0 _ hx _ 51 (by omega) _ _ J52 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J54 : ColsDone x0 (kernelRun0_A.sl.H1_54 c arg2 harg2 arg3 x0) 53 :=
    colsDone_succ arg3 x0 _ hx _ 52 (by omega) _ _ J53 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J55 : ColsDone x0 (kernelRun0_A.sl.H1_55 c arg2 harg2 arg3 x0) 54 :=
    colsDone_succ arg3 x0 _ hx _ 53 (by omega) _ _ J54 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J56 : ColsDone x0 (kernelRun0_A.sl.H1_56 c arg2 harg2 arg3 x0) 55 :=
    colsDone_succ arg3 x0 _ hx _ 54 (by omega) _ _ J55 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J57 : ColsDone x0 (kernelRun0_A.sl.H1_57 c arg2 harg2 arg3 x0) 56 :=
    colsDone_succ arg3 x0 _ hx _ 55 (by omega) _ _ J56 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J58 : ColsDone x0 (kernelRun0_A.sl.H1_58 c arg2 harg2 arg3 x0) 57 :=
    colsDone_succ arg3 x0 _ hx _ 56 (by omega) _ _ J57 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J59 : ColsDone x0 (kernelRun0_A.sl.H1_59 c arg2 harg2 arg3 x0) 58 :=
    colsDone_succ arg3 x0 _ hx _ 57 (by omega) _ _ J58 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J60 : ColsDone x0 (kernelRun0_A.sl.H1_60 c arg2 harg2 arg3 x0) 59 :=
    colsDone_succ arg3 x0 _ hx _ 58 (by omega) _ _ J59 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J61 : ColsDone x0 (kernelRun0_A.sl.H1_61 c arg2 harg2 arg3 x0) 60 :=
    colsDone_succ arg3 x0 _ hx _ 59 (by omega) _ _ J60 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J62 : ColsDone x0 (kernelRun0_A.sl.H1_62 c arg2 harg2 arg3 x0) 61 :=
    colsDone_succ arg3 x0 _ hx _ 60 (by omega) _ _ J61 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J63 : ColsDone x0 (kernelRun0_A.sl.H1_63 c arg2 harg2 arg3 x0) 62 :=
    colsDone_succ arg3 x0 _ hx _ 61 (by omega) _ _ J62 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  have J64 : ColsDone x0 (kernelRun0_A.sl.H1_64 c arg2 harg2 arg3 x0) 63 :=
    colsDone_succ arg3 x0 _ hx _ 62 (by omega) _ _ J63 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
  funext y
  unfold out0_A_1
  rw [View.read_writes_eq_canon _ _ _ (cover0_A_1 c i arg2 harg2 arg3 harg3 hc0 x0)]
  unfold kernelRun0_A
  dsimp only
  obtain ⟨p, q, b, rfl⟩ : ∃ (p : Fin 8) (q : Fin 3) (b : Fin 64), y = ix3 p q b := ⟨y 0, y 1, y 2, eq_ix3 y⟩
  -- the last column, over the first 63
  exact (colsDone_succ arg3 x0 _ hx _ 63 (by omega) _ _ J64 (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u) p q b).trans
    (if_pos (show b.val < 63 + 1 from b.isLt))

/-- At any other tile the body adds each bin's count onto what the block held. -/
theorem out0_B_1_eq (c : Dev nD) (i : grid0.Coords) (arg2 : Memref sig .tc .vmem S8x3x64x512 .f32) (harg2 : arg2.IsWhole)
    (arg3 : Memref sig .tc .vmem S8x3x64 .f32) (harg3 : arg3.IsWhole) (hc0 : ¬cond0_0 i) (x0 : Vec Ideal S8x3x64x512 .f32)
    (xo1 : Vec Ideal S8x3x64 .f32) :
    out0_B_1 (F := Ideal) c i arg2 harg2 arg3 harg3 hc0 x0 xo1 = fun y => xo1 y + tileCount x0 (y 0) (y 1) (y 2) := by
  funext y
  unfold out0_B_1
  rw [View.read_writes_eq_canon _ _ _ (cover0_B_1 c i arg2 harg2 arg3 harg3 hc0 x0 xo1)]
  refine View.canon_apply_of_pieces (fun y : S8x3x64.Idx => xo1 y + tileCount x0 (y 0) (y 1) (y 2)) _ ?_ y
    (cover0_B_1 c i arg2 harg2 arg3 harg3 hc0 x0 xo1 y)
  unfold kernelRun0_B
  dsimp only
  sl_unfold_words
  have hz : (![0, 0, 0, 0] : Fin 4 → ℕ) = fun _ => 0 := by
    funext a
    match a with
    | ⟨0, _⟩ => rfl
    | ⟨1, _⟩ => rfl
    | ⟨2, _⟩ => rfl
    | ⟨3, _⟩ => rfl
  simp only [View.readAt_eq_ld, harg2.read_unread, harg3.read_unread, View.ld_unit_zero (S := S8x3x64x512) hz]
  repeat' refine List.forall_mem_cons.mpr ⟨?_, ?_⟩
  all_goals first
    | exact piece_B x0 xo1 _ (by omega) _ _ (fun p q u => bin_apply _ _ _ Facts₀.natLt_1_32 Facts₀.reduces_S8x3x64x512_S8x3x64 Facts₀.reduces_S8x3x64_S8x3 Facts₀.shapeCasts_S8x3x1_S8x3 Facts₀.shapeCasts_S8x3_S8x3x1 (.inl rfl) (.inl rfl) rfl rfl p q u)
    | exact fun _ h => absurd h (List.not_mem_nil)

end Cert.HistPieces

end
-- ==== Proof.HistArray.lean ====
/-
  The first call's output array is the histogram.

  The call walks 64 points. Point t works on image group t / 8 (images 8·(t/8) … 8·(t/8) + 7) and on row tile t % 8
  (rows 64·(t%8) … 64·(t%8) + 63), and one 8 × 3 × 64 block of counts is carried through the 8 tiles of a group: the first
  tile of a group sets the block to that tile's counts, each later tile adds its own, and the block is written to the
  array after the group's last tile. So after point t the block's entry (p, q, k) is the number of pixels in rows
  0 … 64·(t%8 + 1) − 1 of image 8·(t/8) + p, channel q, whose bin is k — by induction on the point —, which at
  t % 8 = 7 is the count over all 512 rows, the histogram's entry. The blocks written at the points 8·g + 7 tile the array.
-/
import proofs.«171639_j50053548867780_1_alg».proof.Proof.HistPieces
import Idealize.ShloMosaic.Lib.Pipeline.Value

noncomputable section

open scoped BigOperators

namespace Cert.HistArray

open Idealize.ShloMosaic Idealize.ShloMosaic.TcCoe Idealize.ShloMosaic.ValueIdx Idealize.SL.Sem Cert.KernelIdeal Cert.KernelIdeal.Gen Cert.HistSpec

variable (m : (ℓ : Loc nD τ sig) → Buf (Elt Ideal) ℓ) (ρ : Dev nD → PrngReg)

/-! ## The image array and a point's tile of it -/

/-- The image array as the call finds it. -/
abbrev xarr (c : Dev nD) : Vec Ideal S64x3x512x512 .f32 := V0 m ρ c main_arg0
/-- The 8 × 3 × 64 × 512 tile of it that point `t` reads. -/
abbrev xblk (c : Dev nD) (t : Fin cfg0.N) : Vec Ideal S8x3x64x512 .f32 := iblk0 (V0 m ρ) c 0 t

/-- The input tile's index at point `t` is (t / 8, 0, t % 8, 0). -/
theorem idx_in : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)

/-- The output block's index at point `t` is (t / 8, 0, 0). -/
theorem idx_out : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-- A point's input block is the image array read at image 8·(t/8) + p, row 64·(t%8) + r: the block's corner is
    its index times its extent on each axis. -/
theorem xblk_apply (c : Dev nD) (t : Fin cfg0.N) (p : Fin 8) (q : Fin 3) (r : Fin 64) (w : Fin 512) (b : Fin 64) (h : Fin 512)
    (hb : b.val = 8 * (t.val / 8) + p.val) (hh : h.val = 64 * (t.val % 8) + r.val) :
    xblk m ρ c t (ix4 p q r w) = xarr m ρ c (ix4 b q h w) := by
  obtain ⟨e0, e1, e2, e3⟩ := idx_in t
  unfold xblk iblk0
  rw [View.read_apply]
  show V0 m ρ c main_arg0 _ = V0 m ρ c main_arg0 _
  congr 1
  funext a
  apply Fin.ext
  match a with
  | ⟨0, _⟩ => show win0_0.index t (0 : Fin 4) * 8 + 1 * p.val = b.val; omega
  | ⟨1, _⟩ => show win0_0.index t (1 : Fin 4) * 3 + 1 * q.val = q.val; omega
  | ⟨2, _⟩ => show win0_0.index t (2 : Fin 4) * 64 + 1 * r.val = h.val; omega
  | ⟨3, _⟩ => show win0_0.index t (3 : Fin 4) * 512 + 1 * w.val = w.val; omega

/-! ## Counting by rows -/

/-- The number of pixels of row `h` of image `b`, channel `q` whose bin is `k`; zero for a row past the image. -/
def rowCount (x : SX.Idx → EReal) (b : Fin 64) (q : Fin 3) (k : Fin 64) (h : ℕ) : EReal :=
  if hh : h < 512 then ∑ w : Fin 512, ind (binWord (x (ix4 b q ⟨h, hh⟩ w))) (BitVec.ofNat 32 k.val) else 0

/-- The count over an image is the sum of its 512 rows' counts. -/
theorem count_eq_sum_rows (x : SX.Idx → EReal) (b : Fin 64) (q : Fin 3) (k : Fin 64) :
    HistSpec.count x b q k = ∑ h ∈ Finset.range 512, rowCount x b q k h := by
  unfold HistSpec.count
  rw [← Fin.sum_univ_eq_sum_range (fun h => rowCount x b q k h) 512]
  refine Finset.sum_congr rfl fun h _ => ?_
  unfold rowCount
  rw [dif_pos h.isLt]

/-- The rows below 64·(s+1) are the rows below 64·s and the 64 rows of tile `s`. -/
theorem sum_rows_succ (f : ℕ → EReal) (s : ℕ) :
    ∑ h ∈ Finset.range (64 * (s + 1)), f h = ∑ h ∈ Finset.range (64 * s), f h + ∑ r ∈ Finset.range 64, f (64 * s + r) := by
  rw [show 64 * (s + 1) = 64 * s + 64 from by ring, Finset.sum_range_add]

/-- A tile whose rows are rows 64·s … 64·s + 63 of image `b` counts those rows. -/
theorem tileCount_eq_rows (x0 : (⟨4, ![8, 3, 64, 512]⟩ : Shape).Idx → EReal) (x : SX.Idx → EReal) (p : Fin 8) (q : Fin 3) (k : Fin 64)
    (b : Fin 64) (s : ℕ) (hs : s < 8)
    (hx : ∀ (r : Fin 64) (w : Fin 512) (h : Fin 512), h.val = 64 * s + r.val → x0 (ix4 p q r w) = x (ix4 b q h w)) :
    tileCount x0 p q k = ∑ r ∈ Finset.range 64, rowCount x b q k (64 * s + r) := by
  unfold tileCount
  rw [← Fin.sum_univ_eq_sum_range (fun r => rowCount x b q k (64 * s + r)) 64]
  refine Finset.sum_congr rfl fun r _ => ?_
  have hr : r.val < 64 := r.isLt
  have hh : 64 * s + r.val < 512 := by omega
  unfold rowCount
  rw [dif_pos hh]
  refine Finset.sum_congr rfl fun w _ => ?_
  rw [hx r w ⟨_, hh⟩ rfl]

/-! ## What the carried block holds after each point -/

/-- The tile read at point `n` is rows 64·(n%8) … 64·(n%8) + 63 of images 8·(n/8) + p. -/
theorem tile_at (c : Dev nD) (n : ℕ) (hn : n < cfg0.N) (p : Fin 8) (q : Fin 3) (k : Fin 64) (b : Fin 64)
    (hb : b.val = 8 * (n / 8) + p.val) :
    tileCount (xblk m ρ c ⟨n, hn⟩) p q k = ∑ r ∈ Finset.range 64, rowCount (xarr m ρ c) b q k (64 * (n % 8) + r) :=
  tileCount_eq_rows (xblk m ρ c ⟨n, hn⟩) (xarr m ρ c) p q k b (n % 8) (Nat.mod_lt _ (by decide))
    fun r w h hh => xblk_apply m ρ c ⟨n, hn⟩ p q r w b h hb hh

/-- At a point that opens an image group the carried block is that point's tile count. -/
theorem outsAt_open (c : Dev nD) (n : ℕ) (hn : n < cfg0.N) (h0 : n % 8 = 0) (p : Fin 8) (q : Fin 3) (k : Fin 64) :
    outsAt0 (V0 m ρ) c n hn (ix3 p q k) = tileCount (xblk m ρ c ⟨n, hn⟩) p q k :=
  congrFun ((outsAt0_A (V0 m ρ) c ⟨n, hn⟩ h0).trans
    (HistPieces.out0_A_1_eq c (grid0.coords ⟨n, hn⟩) (ms0_0 ⟨n, hn⟩) (hs0_0 ⟨n, hn⟩) (ms0_1 ⟨n, hn⟩) (hs0_1 ⟨n, hn⟩)
      ((hcond0_0 ⟨n, hn⟩).mpr h0) (xblk m ρ c ⟨n, hn⟩))) (ix3 p q k)

/-- At any other point it is what the point before left plus that point's tile count. -/
theorem outsAt_step (c : Dev nD) (n : ℕ) (hn : n < cfg0.N) (h0 : ¬n % 8 = 0) (p : Fin 8) (q : Fin 3) (k : Fin 64) :
    outsAt0 (V0 m ρ) c n hn (ix3 p q k)
      = outsAt0 (V0 m ρ) c (n - 1) (Nat.lt_of_le_of_lt (Nat.sub_le _ _) hn) (ix3 p q k) + tileCount (xblk m ρ c ⟨n, hn⟩) p q k :=
  congrFun ((outsAt0_B (V0 m ρ) c ⟨n, hn⟩ h0).trans
    (HistPieces.out0_B_1_eq c (grid0.coords ⟨n, hn⟩) (ms0_0 ⟨n, hn⟩) (hs0_0 ⟨n, hn⟩) (ms0_1 ⟨n, hn⟩) (hs0_1 ⟨n, hn⟩)
      (fun h => h0 ((hcond0_0 ⟨n, hn⟩).mp h)) (xblk m ρ c ⟨n, hn⟩)
      (outsAt0 (V0 m ρ) c (n - 1) (Nat.lt_of_le_of_lt (Nat.sub_le _ _) hn)))) (ix3 p q k)

/-- After point `n` the carried block's entry (p, q, k) counts rows 0 … 64·(n%8 + 1) − 1 of image 8·(n/8) + p. -/
theorem outsAt_eq (c : Dev nD) : ∀ (n : ℕ) (hn : n < cfg0.N) (p : Fin 8) (q : Fin 3) (k : Fin 64) (b : Fin 64),
    b.val = 8 * (n / 8) + p.val →
    outsAt0 (V0 m ρ) c n hn (ix3 p q k) = ∑ h ∈ Finset.range (64 * (n % 8 + 1)), rowCount (xarr m ρ c) b q k h := by
  intro n
  induction n using Nat.strong_induction_on with
  | _ n ih =>
    intro hn p q k b hb
    rw [sum_rows_succ, ← tile_at m ρ c n hn p q k b hb]
    by_cases h0 : n % 8 = 0
    · rw [outsAt_open m ρ c n hn h0 p q k, h0]
      simp only [Nat.mul_zero, Finset.range_zero, Finset.sum_empty, zero_add]
    · rw [outsAt_step m ρ c n hn h0 p q k, ih (n - 1) (by omega) _ p q k b (by omega),
        show (n - 1) % 8 + 1 = n % 8 from by omega]

/-! ## From the blocks to the array -/

/-- What a point that closes an image group writes back is its block of the histogram: all 8 row tiles of the
    group's images have been counted. -/
theorem flushed_eq (c : Dev nD) (t : Fin cfg0.N) (hf : (cfg0.win 1).flush t = true) :
    (dat0 (V0 m ρ) c).flushed 1 t = ((cfg0.win 1).blk t).view.read (Elt Ideal) (hist (xarr m ρ c)) := by
  have h7 : t.val % 8 = 7 := (flush0_1 t).mp hf
  have hN : t.val < 64 := lt_of_lt_of_eq t.isLt (show cfg0.N = 64 from N_0)
  obtain ⟨e0, e1, e2⟩ := idx_out t
  show (cfg0.win 1).cut (grid0.coords t) ((dat0 (V0 m ρ) c).after 1 t) = _
  rw [after0_1]
  refine funext fun (j : S8x3x64.Idx) => ?_
  obtain ⟨p, q, k, rfl⟩ : ∃ (p : Fin 8) (q : Fin 3) (k : Fin 64), j = ix3 p q k := ⟨j 0, j 1, j 2, eq_ix3 j⟩
  have hp : p.val < 8 := p.isLt
  obtain ⟨b, hb⟩ : ∃ b : Fin 64, b.val = 8 * (t.val / 8) + p.val := ⟨⟨8 * (t.val / 8) + p.val, by omega⟩, rfl⟩
  have hemb : ((cfg0.win 1).blk t).view.emb (ix3 p q k) = ix3 b q k := by
    funext a
    apply Fin.ext
    match a with
    | ⟨0, _⟩ => show win0_1.index t (0 : Fin 3) * 8 + 1 * p.val = b.val; omega
    | ⟨1, _⟩ => show win0_1.index t (1 : Fin 3) * 3 + 1 * q.val = q.val; omega
    | ⟨2, _⟩ => show win0_1.index t (2 : Fin 3) * 64 + 1 * k.val = k.val; omega
  show outsAt0 (V0 m ρ) c t.val t.isLt (ix3 p q k) = hist (xarr m ρ c) (((cfg0.win 1).blk t).view.emb (ix3 p q k))
  rw [hemb, hist_apply, count_eq_sum_rows, outsAt_eq m ρ c t.val t.isLt p q k b hb, h7]

/-- An index of the array is in point `t`'s block iff each coordinate is in the block's range on its axis. -/
theorem mem_blk (t : Fin cfg0.N) (i : S64x3x64.Idx) :
    i ∈ ((cfg0.win 1).blk t).view.set ↔ ∀ a : Fin 3, win0_1.index t a * S8x3x64.size a ≤ (i a).val
      ∧ (i a).val < win0_1.index t a * S8x3x64.size a + S8x3x64.size a := by
  show i ∈ ((View.whole main_v0).slice (win0_1.rect t)).set ↔ _
  rw [View.set_slice_whole, Rect.mem_set_unit]
  exact Iff.rfl

/-- Image `b`'s entries lie in the block written back at the last point of its group, 8·(b/8) + 7. -/
theorem covered (i : S64x3x64.Idx) :
    ∃ t : Fin cfg0.N, (cfg0.win 1).flush t = true ∧ i ∈ ((cfg0.win 1).blk t).view.set := by
  have hi0 : (i 0).val < 64 := (i 0).isLt
  have hi1 : (i 1).val < 3 := (i 1).isLt
  have hi2 : (i 2).val < 64 := (i 2).isLt
  obtain ⟨t, ht⟩ : ∃ t : Fin cfg0.N, t.val = 8 * ((i 0).val / 8) + 7 :=
    ⟨⟨8 * ((i 0).val / 8) + 7, lt_of_lt_of_eq (by omega) (show cfg0.N = 64 from N_0).symm⟩, rfl⟩
  obtain ⟨e0, e1, e2⟩ := idx_out t
  refine ⟨t, (flush0_1 t).mpr (by omega), ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 3 ≤ (i 1).val ∧ (i 1).val < win0_1.index t (1 : Fin 3) * 3 + 3; omega
  | ⟨2, _⟩ => show win0_1.index t (2 : Fin 3) * 64 ≤ (i 2).val ∧ (i 2).val < win0_1.index t (2 : Fin 3) * 64 + 64; omega

/-- The output array after the call: every entry is in a block some point writes back, and each such block is
    the histogram's. -/
theorem arr_final (c : Dev nD) : (dat0 (V0 m ρ) c).arrAt 1 cfg0.N = hist (xarr m ρ c) :=
  (dat0 (V0 m ρ) c).arrAt_eq_of_cover 1 (hist (xarr m ρ c)) (flushed_eq m ρ c) covered

/-- After the first pallas_call its output array holds the histogram of the image argument. -/
theorem hist_arr (m : (ℓ : Loc nD τ sig) → Buf (Elt Ideal) ℓ) (ρ : Dev nD → PrngReg) (c : Dev nD) :
    W1 (F := Ideal) m ρ c (Proc.devRef .tc main_v0) = hist (m ((c : Thread nD τ).loc main_arg0)) :=
  (W1_arr m ρ c 1).trans (arr_final m ρ c)

end Cert.HistArray

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.MlpPayload.lean ====
import proofs.«171639_j50053548867780_1_alg».proof.Proof.Gen.KernelIdeal.Skeleton
import proofs.«171639_j50053548867780_1_alg».proof.Proof.Spec
import proofs.«171639_j50053548867780_1_alg».proof.Proof.LibSideBySide
import proofs.«171639_j50053548867780_1_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.MlpPayload

open Idealize.ShloMosaic Idealize.ShloMosaic.TcCoe Idealize.ShloMosaic.ValueIdx Cert.KernelIdeal Cert.KernelIdeal.Gen Cert.HistSpec

/-- The 64 × 3 × 64 histogram reshaped to 64 × 192 is the count matrix. -/
theorem shapeCast_hist (x : SX.Idx → EReal) (h : SH.ShapeCasts SH2) : shapeCast SH2 (hist x) h = hist2 x := by
  funext j
  obtain ⟨a, q, rfl⟩ : ∃ (a : Fin 64) (q : Fin 192), j = ix2 a q := ⟨j 0, j 1, eq_ix2 j⟩
  have hq : q.val < 192 := q.isLt
  have h1 : q.val / 64 < 3 := by omega
  have h2 : q.val % 64 < 64 := Nat.mod_lt _ (by decide)
  -- entry (a, q) of the matrix and entry (a, q / 64, q % 64) of the histogram have the same row-major position
  refine (shapeCast_apply (hist x) h (ix2 a q) (ix3 a ⟨q.val / 64, h1⟩ ⟨q.val % 64, h2⟩) ?_).trans ?_
  · rw [Shape.rowMajor_val_three, Shape.rowMajor_val_two]
    show (a.val * 3 + q.val / 64) * 64 + q.val % 64 = a.val * 192 + q.val
    omega
  · rw [hist_apply, hist2_apply]

/-- The sum along row `a` of the absolute values is the row's L1 norm. -/
theorem absRowSum_apply (h : FVec Ideal S64x192 .f32) (hr : S64x192.Reduces [1] S64) (hφ : FKind.Formats .f32)
    (hacc : (0x00000000#32 : BitVec 32) = FKind.add.neutral .f32 hφ) (a : Fin 64) :
    multiReduction (F := Ideal) .add [1] S64 (absf h) 0x00000000#32 hr hφ hacc (ix1 a) = l1 h a := by
  refine (Ideal.multiReduction_add_single (absf h) 0x00000000#32 hr hφ hacc (ix1 a)).trans ?_
  show ∑ k : Fin 192, absf h (hr.lift (ix1 a) k) = ∑ k : Fin 192, FloatOps.absf (F := Ideal) (φ := .f32) (h (ix2 a k))
  refine Finset.sum_congr rfl fun k _ => ?_
  have e : hr.lift (ix1 a) k = ix2 a k :=
    funext fun d => Fin.ext (by match d with | ⟨0, _⟩ => rfl | ⟨1, _⟩ => rfl)
  rw [e]; rfl

/-- The normalised block: entry (a, k) over max(‖row a‖₁, ε), the column of row norms being kept as a 64 × 1 array and
    laid along the 192 columns. -/
theorem normed_block_apply (h : FVec Ideal S64x192 .f32) (hs : S64x192.ShapeCasts S64x192) (hr : S64x192.Reduces [1] S64)
    (hφ : FKind.Formats .f32) (hacc : (0x00000000#32 : BitVec 32) = FKind.add.neutral .f32 hφ)
    (hc : S64.ShapeCasts S64x1) (hb : S64x1.Broadcasts S64x192) (a : Fin 64) (k : Fin 192) :
    divf (shapeCast S64x192 h hs)
        (broadcastTo S64x192
          (maximumf
            (shapeCast S64x1 (multiReduction (F := Ideal) .add [1] S64 (absf (shapeCast S64x192 h hs)) 0x00000000#32 hr hφ hacc) hc)
            (broadcast S64x1 (Scalar.ofBits (F := Ideal) .f32 0x2B8CBCCC#32)))
          hb) (ix2 a k)
      = normed h a k := by
  rw [shapeCast_self h hs]
  show Ideal.div (h (ix2 a k)) (broadcastTo S64x192 _ hb (ix2 a k)) = _
  rw [broadcastTo_a1_ab_apply]
  show Ideal.div (h (ix2 a k)) (max (shapeCast S64x1 _ hc (ix2 a (0 : Fin 1))) (Ideal.ofBits .f32 0x2B8CBCCC#32)) = _
  rw [shapeCast_a_a1_apply, absRowSum_apply]
  rfl

/-- A vector of 128 entries laid as the one row of a 1 × 128 array and then along 64 rows reads, at (a, j), its entry j. -/
theorem biasRow_apply (b : FVec Ideal S128 .f32) (hs : S128.ShapeCasts S1x128) (hb : S1x128.Broadcasts S64x128)
    (a : Fin 64) (j : Fin 128) : broadcastTo S64x128 (shapeCast S1x128 b hs) hb (ix2 a j) = b (ix1 j) := by
  rw [broadcastTo_1b_ab_apply, shapeCast_a_1a_apply]

/-- A dense layer: the 64 × k block times the k × 128 weights on the matrix unit, from a zero accumulator, plus the bias
    row, read at (a, j). -/
theorem dense_apply {k : Nat} {φ₁ φ₂ : FTy} (d : DotDims ⟨2, ![64, k]⟩ ⟨2, ![k, 128]⟩ ⟨2, ![64, 128]⟩)
    (hd : d = DotDims.plain 64 k 128) (A : FVec Ideal ⟨2, ![64, k]⟩ φ₁) (W : FVec Ideal ⟨2, ![k, 128]⟩ φ₂)
    (b : FVec Ideal S128 .f32) (hs : S128.ShapeCasts S1x128) (hb : S1x128.Broadcasts S64x128) (a : Fin 64) (j : Fin 128) :
    addf (matmul d none A W (constant (F := Ideal) S64x128 .f32 0x00000000#32))
        (broadcastTo S64x128 (shapeCast S1x128 b hs) hb) (ix2 a j)
      = (∑ c : Fin k, A (ix2 a c) * W (ix2 c j)) + b (ix1 j) := by
  show matmul d none A W (constant (F := Ideal) S64x128 .f32 0x00000000#32) (ix2 a j)
      + broadcastTo S64x128 (shapeCast S1x128 b hs) hb (ix2 a j) = _
  rw [biasRow_apply]
  exact congrArg (· + b (ix1 j)) (SideBySide.kernelProduct_apply d hd none A W a j)

/-- The second kernel's one store, as a function of its five loaded blocks, is the normalisation and the two dense
    layers. -/
theorem payload_eq (h : Vec Ideal S64x192 .f32) (W1 : Vec Ideal S192x128 .f32) (b1 : Vec Ideal S128 .f32)
    (W2 : Vec Ideal S128x128 .f32) (b2 : Vec Ideal S128 .f32) :
    k1_pay1 (F := Ideal) h W1 b1 W2 b2 = mlp h W1 b1 W2 b2 := by
  funext i
  obtain ⟨a, j, rfl⟩ : ∃ (a : Fin 64) (j : Fin 128), i = ix2 a j := ⟨i 0, i 1, eq_ix2 i⟩
  rw [mlp_apply]
  unfold k1_pay1
  -- the output layer: a sum over the hidden coordinate, plus the bias
  refine (dense_apply dot_S64x128_S128x128_S64x128_1_0_0_1_n_n rfl _ _ b2 _ _ a j).trans ?_
  refine congrArg (· + b2 (ix1 j)) (Finset.sum_congr rfl fun c _ => ?_)
  refine congrArg (· * W2 (ix2 c j)) ?_
  -- the hidden layer at (a, c): the larger of the first dense layer and zero
  show max (addf (matmul dot_S64x192_S192x128_S64x128_1_0_0_1_n_n none _ _ _) _ (ix2 a c)) (Ideal.ofBits .f32 0x00000000#32)
    = Cert.HistSpec.hidden h W1 b1 a c
  unfold Cert.HistSpec.hidden
  refine congrArg (max · (Ideal.ofBits .f32 0x00000000#32)) ?_
  refine (dense_apply dot_S64x192_S192x128_S64x128_1_0_0_1_n_n rfl _ _ b1 _ _ a c).trans ?_
  refine congrArg (· + b1 (ix1 c)) (Finset.sum_congr rfl fun k _ => ?_)
  refine congrArg (· * W1 (ix2 k c)) ?_
  exact normed_block_apply h _ _ _ _ _ _ a k

end Cert.MlpPayload

end
-- ==== Proof.MlpArray.lean ====
import proofs.«171639_j50053548867780_1_alg».proof.Proof.Gen.KernelIdeal.Frame
import proofs.«171639_j50053548867780_1_alg».proof.Proof.MlpPayload
import Idealize.ShloMosaic.Lib.Pipeline.Value

noncomputable section

open scoped BigOperators

namespace Cert.MlpArray

open Idealize.ShloMosaic Idealize.ShloMosaic.TcCoe Idealize.ShloMosaic.ValueIdx Idealize.SL.Sem Cert.KernelIdeal Cert.KernelIdeal.Gen Cert.HistSpec

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The one store of the second kernel's body, through the whole staging buffer, leaves the specification's
    normalisation and two dense layers of the five loaded blocks, each loaded whole. -/
theorem out_eq (x0 : Vec Ideal S64x192 .f32) (x1 : Vec Ideal S192x128 .f32) (x2 : Vec Ideal S128 .f32)
    (x3 : Vec Ideal S128x128 .f32) (x4 : Vec Ideal S128 .f32) :
    out1_5 (F := Ideal) x0 x1 x2 x3 x4 = mlp x0 x1 x2 x3 x4 := by
  unfold out1_5
  rw [View.canon_unit_zero zero2]
  simp only [View.ld_unit_zero (S := S64x192) zero2, View.ld_unit_zero (S := S192x128) zero2,
    View.ld_unit_zero (S := S128) zero1, View.ld_unit_zero (S := S128x128) zero2]
  exact Cert.MlpPayload.payload_eq x0 x1 x2 x3 x4

/-! The grid has one point and every index map is constantly zero, so each window's block starts at offset
    zero on every axis and has the array's own extents: the block is the whole array. -/

theorem off0 (t : Fin cfg1.N) : (fun a => win1_0.index t a * main_v1.ty.shape.size a) = fun _ => 0 :=
  funext fun a => by fin_cases a <;> rfl
theorem off1 (t : Fin cfg1.N) : (fun a => win1_1.index t a * main_arg1.ty.shape.size a) = fun _ => 0 :=
  funext fun a => by fin_cases a <;> rfl
theorem off2 (t : Fin cfg1.N) : (fun a => win1_2.index t a * main_arg2.ty.shape.size a) = fun _ => 0 :=
  funext fun a => by fin_cases a; rfl
theorem off3 (t : Fin cfg1.N) : (fun a => win1_3.index t a * main_arg3.ty.shape.size a) = fun _ => 0 :=
  funext fun a => by fin_cases a <;> rfl
theorem off4 (t : Fin cfg1.N) : (fun a => win1_4.index t a * main_arg4.ty.shape.size a) = fun _ => 0 :=
  funext fun a => by fin_cases a; rfl
theorem off5 (t : Fin cfg1.N) : (fun a => win1_5.index t a * main_v2.ty.shape.size a) = fun _ => 0 :=
  funext fun a => by fin_cases a <;> rfl

theorem blk0 (c : Dev nD) (t : Fin cfg1.N) : (iblk1 V c 0 t : Vec Ideal S64x192 .f32) = V c main_v1 := by
  unfold iblk1
  exact Memref.read_access_unit_zero (Elt Ideal) main_v1 (off0 t) (fun a => by rw [congrFun (off0 t) a]; simp) (V c main_v1)
theorem blk1 (c : Dev nD) (t : Fin cfg1.N) : (iblk1 V c 1 t : Vec Ideal S192x128 .f32) = V c main_arg1 := by
  unfold iblk1
  exact Memref.read_access_unit_zero (Elt Ideal) main_arg1 (off1 t) (fun a => by rw [congrFun (off1 t) a]; simp) (V c main_arg1)
theorem blk2 (c : Dev nD) (t : Fin cfg1.N) : (iblk1 V c 2 t : Vec Ideal S128 .f32) = V c main_arg2 := by
  unfold iblk1
  exact Memref.read_access_unit_zero (Elt Ideal) main_arg2 (off2 t) (fun a => by rw [congrFun (off2 t) a]; simp) (V c main_arg2)
theorem blk3 (c : Dev nD) (t : Fin cfg1.N) : (iblk1 V c 3 t : Vec Ideal S128x128 .f32) = V c main_arg3 := by
  unfold iblk1
  exact Memref.read_access_unit_zero (Elt Ideal) main_arg3 (off3 t) (fun a => by rw [congrFun (off3 t) a]; simp) (V c main_arg3)
theorem blk4 (c : Dev nD) (t : Fin cfg1.N) : (iblk1 V c 4 t : Vec Ideal S128 .f32) = V c main_arg4 := by
  unfold iblk1
  exact Memref.read_access_unit_zero (Elt Ideal) main_arg4 (off4 t) (fun a => by rw [congrFun (off4 t) a]; simp) (V c main_arg4)

/-- The output array the second call leaves, as a function of the arrays it finds on entry. -/
abbrev result (c : Dev nD) : S64x128.Idx → EReal :=
  mlp (V c main_v1) (V c main_arg1) (V c main_arg2) (V c main_arg3) (V c main_arg4)

/-- What the one point writes back is the output window's block — the whole array — of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5, blk0 V c t, blk1 V c t, blk2 V c t, blk3 V c t, blk4 V c t,
    out_eq (V c main_v1) (V c main_arg1) (V c main_arg2) (V c main_arg3) (V c main_arg4)]
  exact (Memref.read_access_unit_zero (Elt Ideal) main_v2 (off5 t) (fun a => by rw [congrFun (off5 t) a]; simp) (result V c)).symm

/-- The one point's block covers every index of the output array. -/
theorem cover (i : S64x128.Idx) :
    ∃ t : Fin cfg1.N, (cfg1.win 5).flush t = true ∧ i ∈ ((cfg1.win 5).blk t).view.set := by
  refine ⟨t1_0, flush1_5 t1_0, ?_⟩
  show i ∈ ((View.whole main_v2).slice (win1_5.rect t1_0)).set
  rw [View.set_slice_whole, Rect.mem_set_unit]
  intro a
  have h0 : (i 0 : Nat) < 64 := (i 0).isLt
  have h1 : (i 1 : Nat) < 128 := (i 1).isLt
  match a with
  | ⟨0, _⟩ =>
    show win1_5.index t1_0 0 * 64 ≤ (i 0 : Nat) ∧ (i 0 : Nat) < win1_5.index t1_0 0 * 64 + 64
    rw [show win1_5.index t1_0 0 = 0 from rfl]; omega
  | ⟨1, _⟩ =>
    show win1_5.index t1_0 1 * 128 ≤ (i 1 : Nat) ∧ (i 1 : Nat) < win1_5.index t1_0 1 * 128 + 128
    rw [show win1_5.index t1_0 1 = 0 from rfl]; omega

/-- After its write-backs the output window's array is `result` of the entry arrays. -/
theorem final (c : Dev nD) : (dat1 V c).arrAt 5 cfg1.N = result V c :=
  (dat1 V c).arrAt_eq_of_cover 5 (result V c) (fun t _ => flushed_eq V c t) cover

variable (m : (ℓ : Loc nD τ sig) → Buf (Elt Ideal) ℓ) (ρ : Dev nD → PrngReg)

/-! What the second call finds on entry. The one host operation between the calls is the reshape of the first
    call's output; the weight and bias arguments are written by nothing, so they are as launched. -/

/-- The first window's array on entry: the first call's output read as a 64 × 192 matrix. -/
theorem entry_v1 (c : Dev nD) :
    V2 (F := Ideal) m ρ c main_v1
      = shapeCast S64x192 (W1 (F := Ideal) m ρ c (Proc.devRef .tc main_v0)) shapeCasts_S64x3x64_S64x192 := by
  show StableHlo.after hostOps1 (W1 (F := Ideal) m ρ c) (Proc.devRef .tc main_v1) = _
  after_results
  rfl

/-- An input window's array is never written back, so its contents on entry are its contents at the end, which are the
    launch contents. -/
theorem entry_arg1 (c : Dev nD) : V2 (F := Ideal) m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)
theorem entry_arg2 (c : Dev nD) : V2 (F := Ideal) m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)
theorem entry_arg3 (c : Dev nD) : V2 (F := Ideal) m ρ c main_arg3 = m ((c : Thread nD τ).loc main_arg3) :=
  ((W3_arr m ρ c 3).trans (((dat1 (V2 m ρ) c).arrAt_in 3 rfl _).trans (A_eq1 (V2 m ρ) c 3))).symm.trans (W3_main_arg3 m ρ c)
theorem entry_arg4 (c : Dev nD) : V2 (F := Ideal) m ρ c main_arg4 = m ((c : Thread nD τ).loc main_arg4) :=
  ((W3_arr m ρ c 4).trans (((dat1 (V2 m ρ) c).arrAt_in 4 rfl _).trans (A_eq1 (V2 m ρ) c 4))).symm.trans (W3_main_arg4 m ρ c)

/-- After the second pallas_call its output array holds the normalisation and the two dense layers of the first call's
    output array reshaped to 64 × 192, with the weight and bias arguments as launched. -/
theorem mlp_arr (m : (ℓ : Loc nD τ sig) → Buf (Elt Ideal) ℓ) (ρ : Dev nD → PrngReg) (c : Dev nD) :
    W3 (F := Ideal) m ρ c (Proc.devRef .tc main_v2)
      = mlp (shapeCast S64x192 (W1 (F := Ideal) m ρ c (Proc.devRef .tc main_v0)) shapeCasts_S64x3x64_S64x192)
          (m ((c : Thread nD τ).loc main_arg1)) (m ((c : Thread nD τ).loc main_arg2))
          (m ((c : Thread nD τ).loc main_arg3)) (m ((c : Thread nD τ).loc main_arg4)) := by
  have h : (dat1 (V2 m ρ) c).arrAt 5 cfg1.N
      = mlp (V2 m ρ c main_v1) (V2 m ρ c main_arg1) (V2 m ρ c main_arg2) (V2 m ρ c main_arg3) (V2 m ρ c main_arg4) :=
    final (V2 m ρ) c
  rw [entry_v1 m ρ c, entry_arg1 m ρ c, entry_arg2 m ρ c, entry_arg3 m ρ c, entry_arg4 m ρ c] at h
  exact (W3_arr m ρ c 5).trans h

end Cert.MlpArray

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.RefHist.lean ====
/-
  The reference's histogram. Update e of the scatter-add (0 ≤ e < 192 · 262144) carries a one and the index word
  bin(e) + 64 · (e / 262144), where bin(e) ∈ [0, 63] is the bin of the pixel at flat position e. Nothing wraps in 32
  bits and the word is never negative, so position a · 192 + q of the result counts the updates of row
  e / 262144 = a · 3 + q / 64 whose bin is q % 64: the 512 × 512 pixels of image a, channel q / 64, with that bin.
-/
import proofs.«171639_j50053548867780_1_alg».proof.Proof.Gen.ReferenceIdeal.Read
import proofs.«171639_j50053548867780_1_alg».proof.Proof.Spec
import proofs.«171639_j50053548867780_1_alg».proof.Proof.LibScatterVec
import Idealize.ShloMosaic.Lib.WordArith
import Idealize.ShloMosaic.Lib.IdealHost

noncomputable section

open scoped BigOperators

namespace Cert.RefHist

open Idealize.ShloMosaic Idealize.ShloMosaic.ValueIdx Cert.ReferenceIdeal Cert.ReferenceIdeal.Read Cert.HistSpec
open Cert.LibScatterVec

/-- The bin word lies in [0, 63] read signed. -/
theorem binWord_range (y : EReal) : 0 ≤ (binWord y).toInt ∧ (binWord y).toInt ≤ 63 := by
  unfold binWord
  generalize Ideal.fptosi 32 _ = v
  have hm := WordArith.toInt_maxsi_zero v
  generalize IntOp.maxsi 0#32 v = m at hm
  have h63 : (63#32 : BitVec 32).toInt = 63 := by decide
  unfold IntOp.minsi
  by_cases h : (63#32 : BitVec 32).slt m = true
  · rw [if_pos h, h63]; omega
  · rw [if_neg h]
    rw [BitVec.slt_iff_toInt_lt, h63] at h
    omega

/-- The scatter index word of a bin word in [0, 63] and a row number below 192: no wrap and no negative-index fix-up. -/
theorem idxWord_toInt (w : BitVec 32) (p : Nat) (hw0 : 0 ≤ w.toInt) (hw1 : w.toInt ≤ 63) (hp : p < 192) :
    (Scalar.select (IntOp.cmpi .slt (IntOp.addi w (IntOp.muli (BitVec.ofNat 32 p) 64#32)) 0#32)
      (IntOp.addi (IntOp.addi w (IntOp.muli (BitVec.ofNat 32 p) 64#32)) 12288#32)
      (IntOp.addi w (IntOp.muli (BitVec.ofNat 32 p) 64#32))).toInt = 64 * (p : ℤ) + w.toInt := by
  have hp' : (BitVec.ofNat 32 p).toInt = p := WordArith.toInt_ofNat_small p (by omega)
  have h64 : (64#32 : BitVec 32).toInt = 64 := by decide
  have hm : (IntOp.muli (BitVec.ofNat 32 p) 64#32).toInt = (p : ℤ) * 64 := by
    unfold IntOp.muli
    rw [WordArith.toInt_mul_of_bounds _ _ (by rw [hp', h64]; omega) (by rw [hp', h64]; omega), hp', h64]
  generalize IntOp.muli (BitVec.ofNat 32 p) 64#32 = m at hm
  have hs : (IntOp.addi w m).toInt = w.toInt + (p : ℤ) * 64 := by
    unfold IntOp.addi
    rw [WordArith.toInt_add_of_bounds _ _ (by rw [hm]; omega) (by rw [hm]; omega), hm]
  generalize IntOp.addi w m = s at hs
  have hc : IntOp.cmpi .slt s 0#32 = 0#1 := by
    show BitVec.ofBool (s.slt 0#32) = 0#1
    have : s.slt 0#32 = false := by
      rw [Bool.eq_false_iff]
      intro h
      rw [BitVec.slt_iff_toInt_lt] at h
      have h0 : (0#32 : BitVec 32).toInt = 0 := by decide
      omega
    rw [this]; rfl
  rw [hc]
  show (if (0#1 : BitVec 1) = 1 then _ else s).toInt = _
  rw [if_neg (by decide), hs]; ring

/-- Splitting a sum over `Fin (m * n)` into the double sum over quotient and remainder. -/
theorem sum_fin_mul {M : Type*} [AddCommMonoid M] {m n : ℕ} (f : Fin (m * n) → M) :
    ∑ e, f e = ∑ a : Fin m, ∑ b : Fin n, f (finProdFinEquiv (a, b)) := by
  rw [← finProdFinEquiv.sum_comp f, Fintype.sum_prod_type]

/-- The reference's clipped integer convert at a pixel is the bin word of the specification. -/
theorem v6_at (x : SX.Idx → EReal) (i : SX.Idx) : val_main_v6 (F := Ideal) x i = binWord (x i) := by
  rw [val_main_v6_apply, val_main_call0_v4_apply, val_main_call0_v3_apply, val_main_c_1_apply,
    val_main_call0_v2_apply, val_main_call0_v1_apply, val_main_call0_v0_apply, val_main_c_apply,
    val_main_v5_apply, val_main_v4_apply, val_main_v3_apply, val_main_v1_apply, val_main_v0_apply, val_main_cst_apply,
    val_main_v2_apply, val_main_cst_0_apply]
  rfl

/-- The pixel that update `e` of the scatter reads. -/
def pixOf (e : Fin 50331648) : SX.Idx := idx_main_v11 (idx_main_v14 (ix1 e))

/-- Update `e`'s index word, read signed, is 64 times its row plus its pixel's bin. -/
theorem idxw_toInt (x : SX.Idx → EReal) (e : Fin 50331648) :
    (val_main_v21 (F := Ideal) x (ix2 e (0 : Fin 1))).toInt = 64 * ((e.val / 262144 : ℕ) : ℤ) + (binWord (x (pixOf e))).toInt := by
  have he := e.isLt
  have h21 : idx_main_v21 (ix2 e (0 : Fin 1)) = ix1 e := by funext d; match d with | ⟨0, _⟩ => rfl
  have h12 : idx_main_v10 (idx_main_v12 (idx_main_v14 (ix1 e))) = ix1 (⟨e.val / 262144, by omega⟩ : Fin 192) := by
    funext d; match d with | ⟨0, _⟩ => rfl
  rw [val_main_v21_apply, h21, val_main_v20_apply, val_main_v17_apply, val_main_v19_apply, val_main_v16_apply,
    val_main_c_4_apply, val_main_v18_apply, val_main_c_5_apply, val_main_v14_apply, val_main_v13_apply,
    val_main_v11_apply, v6_at, val_main_v12_apply, val_main_v10_apply, h12, val_main_v9_apply, val_main_v7_apply,
    val_main_v8_apply, val_main_c_2_apply]
  exact idxWord_toInt _ (e.val / 262144) (binWord_range _).1 (binWord_range _).2 (by omega)

/-- The pixel of update `((a·3 + c)·512 + h)·512 + w` is `(a, c, h, w)`. -/
theorem pixOf_eq (a : Fin 64) (c : Fin 3) (h w : Fin 512) (e : Fin 50331648)
    (he : e.val = ((a.val * 3 + c.val) * 512 + h.val) * 512 + w.val) : pixOf e = ix4 a c h w := by
  have ha := a.isLt; have hc := c.isLt; have hh := h.isLt; have hw := w.isLt
  unfold pixOf
  funext d
  match d with
  | ⟨0, _⟩ => exact Fin.ext (by show (e.val / 262144 * 262144 + e.val % 262144) / 786432 = a.val; omega)
  | ⟨1, _⟩ => exact Fin.ext (by show (e.val / 262144 * 262144 + e.val % 262144) / 262144 % 3 = c.val; omega)
  | ⟨2, _⟩ => exact Fin.ext (by show (e.val / 262144 * 262144 + e.val % 262144) / 512 % 512 = h.val; omega)
  | ⟨3, _⟩ => exact Fin.ext (by show (e.val / 262144 * 262144 + e.val % 262144) % 512 = w.val; omega)

/-- The program's scatter read at a position. -/
theorem scatter_at (X : S12288.Idx → EReal) (I : IVec S50331648x1 32) (Y : S50331648.Idx → EReal) (r : Fin 12288) :
    Host.scatterAdd (F := Ideal) (φ := .f32) scatter_S12288_S50331648x1_S50331648_n_0_0_1 X I Y (ix1 r)
      = X (ix1 r) + ∑ e : Fin 50331648, if (I (ix2 e (0 : Fin 1))).toInt = (r.val : ℤ) then Y (ix1 e) else 0 :=
  vecScatterAdd_apply Facts₀.scatter_S12288_S50331648x1_S50331648_n_0_0_1_wf X I Y r

/-- The 192 · 262144 updates, row by row. -/
theorem sum_split_rows {M : Type*} [AddCommMonoid M] (f : Fin 50331648 → M) :
    ∑ e, f e = ∑ p : Fin 192, ∑ m : Fin 262144, f ⟨p.val * 262144 + m.val, by omega⟩ := by
  refine (sum_fin_mul (m := 192) (n := 262144) f).trans ?_
  refine Finset.sum_congr rfl fun p _ => Finset.sum_congr rfl fun m _ => congrArg f (Fin.ext ?_)
  show m.val + 262144 * p.val = p.val * 262144 + m.val
  omega

/-- The 512 · 512 pixels of one row, line by line. -/
theorem sum_split_px {M : Type*} [AddCommMonoid M] (f : Fin 262144 → M) :
    ∑ m, f m = ∑ h : Fin 512, ∑ w : Fin 512, f ⟨h.val * 512 + w.val, by omega⟩ := by
  refine (sum_fin_mul (m := 512) (n := 512) f).trans ?_
  refine Finset.sum_congr rfl fun h _ => Finset.sum_congr rfl fun w _ => congrArg f (Fin.ext ?_)
  show w.val + 512 * h.val = h.val * 512 + w.val
  omega

/-- The reference's scattered and reshaped histogram is the count matrix. -/
theorem ref_hist (x : SX.Idx → EReal) : val_main_v24 (F := Ideal) x = hist2 x := by
  funext j
  obtain ⟨a, q, rfl⟩ : ∃ (a : Fin 64) (q : Fin 192), j = ix2 a q := ⟨j 0, j 1, eq_ix2 j⟩
  have ha := a.isLt
  have hq := q.isLt
  have hr : idx_main_v24 (ix2 a q) = ix1 (⟨a.val * 192 + q.val, by omega⟩ : Fin 12288) := by
    funext d; match d with | ⟨0, _⟩ => rfl
  -- the updates are ones, the operand is zero
  have h1 : ∀ e : Fin 50331648, val_main_v22 (F := Ideal) (ix1 e) = 1 := fun e => by
    rw [val_main_v22_apply, val_main_cst_6_apply, Ideal.ofBits_def, Ideal.ofBits_one_f32]
  rw [hist2_apply, val_main_v24_apply, hr]
  unfold val_main_v23
  rw [scatter_at, val_main_v15_apply, val_main_cst_3_apply, Ideal.ofBits_def, Ideal.ofBits_zero_f32, zero_add]
  simp only [h1, idxw_toInt]
  -- row by row: only row a·3 + q / 64 can hit position a·192 + q
  rw [sum_split_rows, Fintype.sum_eq_single (⟨a.val * 3 + q.val / 64, by omega⟩ : Fin 192)]
  · rw [sum_split_px]
    unfold Cert.HistSpec.count
    refine Finset.sum_congr rfl fun h _ => Finset.sum_congr rfl fun w _ => ?_
    have hh := h.isLt
    have hw := w.isLt
    rw [pixOf_eq a ⟨q.val / 64, by omega⟩ h w _ (by simp only [Fin.val_mk]; omega)]
    obtain ⟨b0, b1⟩ := binWord_range (x (ix4 a (⟨q.val / 64, by omega⟩ : Fin 3) h w))
    generalize binWord (x (ix4 a (⟨q.val / 64, by omega⟩ : Fin 3) h w)) = bw at b0 b1 ⊢
    unfold ind
    refine if_congr ⟨fun hc => ?_, fun hb => ?_⟩ rfl rfl
    · apply BitVec.eq_of_toInt_eq
      rw [WordArith.toInt_ofNat_small _ (by omega)]
      simp only [Fin.val_mk] at hc ⊢
      omega
    · rw [hb, WordArith.toInt_ofNat_small _ (by omega)]
      simp only [Fin.val_mk]
      omega
  · intro p hp
    have hp' := p.isLt
    have hne : p.val ≠ a.val * 3 + q.val / 64 := fun h => hp (Fin.ext h)
    refine Finset.sum_eq_zero fun m _ => if_neg ?_
    have hm := m.isLt
    obtain ⟨b0, b1⟩ := binWord_range (x (pixOf ⟨p.val * 262144 + m.val, by omega⟩))
    simp only [Fin.val_mk]
    omega

end Cert.RefHist

end
-- ==== Proof.RefMlp.lean ====
import proofs.«171639_j50053548867780_1_alg».proof.Proof.Gen.ReferenceIdeal.Read
import proofs.«171639_j50053548867780_1_alg».proof.Proof.Spec

noncomputable section

open scoped BigOperators

namespace Cert.RefMlp

open Idealize.ShloMosaic Idealize.ShloMosaic.ValueIdx Cert.ReferenceIdeal Cert.ReferenceIdeal.Read Cert.HistSpec

/-! ### The index maps of the reference's operations, at explicit coordinates -/

/-- The row sum reads row `a`, column `k`. -/
theorem idx26_eq (a : Fin 64) (k : Fin 192) : idx_main_v26 (ix1 a) k = ix2 a k :=
  funext fun ax => Fin.ext (by match ax with | ⟨0, _⟩ => rfl | ⟨1, _⟩ => rfl)

/-- The kept axis of size one reads the row sum of row `a`. -/
theorem idx27_eq (a : Fin 64) (z : Fin 1) : idx_main_v27 (ix2 a z) = ix1 a :=
  funext fun ax => Fin.ext (by match ax with | ⟨0, _⟩ => rfl)

/-- Broadcasting the 64 × 1 column along the row reads its only column. -/
theorem idx30_eq (a : Fin 64) (k : Fin 192) : idx_main_v30 (ix2 a k) = ix2 a (0 : Fin 1) :=
  funext fun ax => Fin.ext (by match ax with | ⟨0, _⟩ => rfl | ⟨1, _⟩ => rfl)

/-- The first contraction reads the left operand at row `a`, column `k` … -/
theorem lidx32_eq (a : Fin 64) (j : Fin 128) (k : Fin 192) : lidx_main_v32 (ix2 a j) k = ix2 a k :=
  funext fun ax => Fin.ext (by match ax with | ⟨0, _⟩ => rfl | ⟨1, _⟩ => rfl)

/-- … and the right operand at row `k`, column `j`. -/
theorem ridx32_eq (a : Fin 64) (j : Fin 128) (k : Fin 192) : ridx_main_v32 (ix2 a j) k = ix2 k j :=
  funext fun ax => Fin.ext (by match ax with | ⟨0, _⟩ => rfl | ⟨1, _⟩ => rfl)

/-- A bias vector as a 1 × 128 row reads its entry `j`. -/
theorem idx33_eq (z : Fin 1) (j : Fin 128) : idx_main_v33 (ix2 z j) = ix1 j :=
  funext fun ax => Fin.ext (by match ax with | ⟨0, _⟩ => rfl)

/-- Broadcasting the 1 × 128 row down the 64 rows reads its only row. -/
theorem idx34_eq (a : Fin 64) (j : Fin 128) : idx_main_v34 (ix2 a j) = ix2 (0 : Fin 1) j :=
  funext fun ax => Fin.ext (by match ax with | ⟨0, _⟩ => rfl | ⟨1, _⟩ => rfl)

/-- The second contraction reads the left operand at row `a`, column `k` … -/
theorem lidx37_eq (a : Fin 64) (j : Fin 128) (k : Fin 128) : lidx_main_v37 (ix2 a j) k = ix2 a k :=
  funext fun ax => Fin.ext (by match ax with | ⟨0, _⟩ => rfl | ⟨1, _⟩ => rfl)

/-- … and the right operand at row `k`, column `j`. -/
theorem ridx37_eq (a : Fin 64) (j : Fin 128) (k : Fin 128) : ridx_main_v37 (ix2 a j) k = ix2 k j :=
  funext fun ax => Fin.ext (by match ax with | ⟨0, _⟩ => rfl | ⟨1, _⟩ => rfl)

/-- The second bias as a 1 × 128 row reads its entry `j`. -/
theorem idx38_eq (z : Fin 1) (j : Fin 128) : idx_main_v38 (ix2 z j) = ix1 j :=
  funext fun ax => Fin.ext (by match ax with | ⟨0, _⟩ => rfl)

/-- Broadcasting that row down the 64 rows reads its only row. -/
theorem idx39_eq (a : Fin 64) (j : Fin 128) : idx_main_v39 (ix2 a j) = ix2 (0 : Fin 1) j :=
  funext fun ax => Fin.ext (by match ax with | ⟨0, _⟩ => rfl | ⟨1, _⟩ => rfl)

/-! ### The stages, one element at a time -/

/-- The row sum of the absolute values, started from zero, is the L1 norm of the row. -/
theorem v26_at (x : SX.Idx → EReal) (a : Fin 64) :
    val_main_v26 (F := Ideal) x (ix1 a) = l1 (val_main_v24 (F := Ideal) x) a := by
  rw [val_main_v26_apply, val_main_cst_7_apply, Ideal.ofBits_def, Ideal.ofBits_zero_f32, zero_add]
  unfold l1
  refine Finset.sum_congr rfl fun k _ => ?_
  rw [idx26_eq, val_main_v25_apply, Ideal.hostAbsf_def]

/-- The normaliser of row `a`: the larger of its L1 norm and the small constant. -/
theorem v29_at (x : SX.Idx → EReal) (a : Fin 64) (z : Fin 1) :
    val_main_v29 (F := Ideal) x (ix2 a z)
      = max (l1 (val_main_v24 (F := Ideal) x) a) (Ideal.ofBits .f32 0x2B8CBCCC#32) := by
  rw [val_main_v29_apply, val_main_v27_apply, idx27_eq, v26_at, val_main_v28_apply, val_main_cst_8_apply,
    Ideal.maximumf_def, Ideal.ofBits_def]

/-- The quotient is the normalised entry. -/
theorem v31_at (x : SX.Idx → EReal) (a : Fin 64) (k : Fin 192) :
    val_main_v31 (F := Ideal) x (ix2 a k) = normed (val_main_v24 (F := Ideal) x) a k := by
  rw [val_main_v31_apply, val_main_v30_apply, idx30_eq, v29_at, Ideal.hostDivf_def]
  unfold normed
  rfl

/-- The first contraction is the normalised row against column `j` of the first weight matrix. -/
theorem v32_at (x : SX.Idx → EReal) (W1 : SW1.Idx → EReal) (a : Fin 64) (j : Fin 128) :
    val_main_v32 (F := Ideal) x W1 (ix2 a j)
      = ∑ k : Fin 192, normed (val_main_v24 (F := Ideal) x) a k * W1 (ix2 k j) := by
  rw [val_main_v32_apply]
  refine Finset.sum_congr rfl fun k _ => ?_
  rw [lidx32_eq, ridx32_eq, v31_at]

/-- Adding the first bias and taking the maximum with zero gives the hidden layer. -/
theorem v36_at (x : SX.Idx → EReal) (W1 : SW1.Idx → EReal) (b1 : SB.Idx → EReal) (a : Fin 64) (j : Fin 128) :
    val_main_v36 (F := Ideal) x W1 b1 (ix2 a j) = hidden (val_main_v24 (F := Ideal) x) W1 b1 a j := by
  rw [val_main_v36_apply, val_main_v35_apply, v32_at, val_main_v34_apply, idx34_eq, val_main_v33_apply, idx33_eq,
    val_main_call1_v0_apply, val_main_call1_cst_apply, Ideal.maximumf_def, Ideal.addf_def, Ideal.ofBits_def]
  unfold HistSpec.hidden
  rfl

/-- The reference's operations after the histogram are the normalisation and the two dense layers. -/
theorem ref_tail (x : SX.Idx → EReal) (W1 : SW1.Idx → EReal) (b1 : SB.Idx → EReal) (W2 : SW2.Idx → EReal) (b2 : SB.Idx → EReal) :
    val_main_v40 (F := Ideal) x W1 b1 W2 b2 = mlp (val_main_v24 (F := Ideal) x) W1 b1 W2 b2 := by
  funext i
  obtain ⟨a, j, rfl⟩ : ∃ (a : Fin 64) (j : Fin 128), i = ix2 a j := ⟨i 0, i 1, eq_ix2 i⟩
  rw [mlp_apply, val_main_v40_apply, val_main_v37_apply, val_main_v39_apply, idx39_eq, val_main_v38_apply, idx38_eq,
    Ideal.addf_def]
  refine congrArg (· + b2 (ix1 j)) (Finset.sum_congr rfl fun k _ => ?_)
  rw [lidx37_eq, ridx37_eq, v36_at]

end Cert.RefMlp

end
-- ==== Proof.lean ====
/-
  The certificate of a two-stage histogram network.

  Stage one counts, for each of 64 images and 3 channels, how many of the 512 × 512 pixels fall in each of 64 bins
  (bin = clip(⌊x · 255 · (64/255)⌋, 0, 63)). The kernel streams the images in tiles of 8 images × 64 rows and, per tile and
  per bin, adds the number of the tile's pixels in that bin onto a resident 8 × 3 × 64 block, zeroed at the first row tile of
  each group of images; the reference adds a one, pixel by pixel, at position (image·3 + channel)·64 + bin of a zero vector.
  Over the extended reals both are the same finite sum of ones, in whatever order it is taken.

  Stage two reads the 64 × 3 × 64 counts as a 64 × 192 matrix, divides each row by max(its L1 norm, 1e-12) and applies
  relu(· W₁ + b₁) W₂ + b₂. The kernel narrows the factors to bf16 before each product, which changes no extended real, and
  forms the products on the matrix unit into a zero accumulator; the reference uses dot_general. Entry by entry both are
  the same sums of products.

  So both programs end with `mlp (hist2 x) W₁ b₁ W₂ b₂` of the specification (Proof/Spec.lean) in their result array.
  The kernel's side: the run of @main with the result named (Proof/KernelRun.lean), the second call's output array as `mlp`
  of the first call's reshaped output (Proof/MlpArray.lean over Proof/MlpPayload.lean), and the first call's output array as
  the histogram (Proof/HistArray.lean over Proof/HistPieces.lean). The reference's side: its generated run, its operations
  after the scatter as `mlp` (Proof/RefMlp.lean), and the scattered counts as `hist2` (Proof/RefHist.lean).
  No step uses that an input is finite. The ideal pass rewrote nothing, so `preserves` is `True`.
-/
import proofs.«171639_j50053548867780_1_alg».proof.Defs
import proofs.«171639_j50053548867780_1_alg».proof.Proof.Gen.Kernel
import proofs.«171639_j50053548867780_1_alg».proof.Proof.Gen.Kernel.Frame
import proofs.«171639_j50053548867780_1_alg».proof.Proof.Gen.KernelIdeal
import proofs.«171639_j50053548867780_1_alg».proof.Proof.Gen.KernelIdeal.Frame
import proofs.«171639_j50053548867780_1_alg».proof.Proof.Gen.ReferenceIdeal
import proofs.«171639_j50053548867780_1_alg».proof.Proof.Gen.ReferenceIdeal.Run
import proofs.«171639_j50053548867780_1_alg».proof.Proof.Gen.ReferenceIdeal.Read
import proofs.«171639_j50053548867780_1_alg».proof.Proof.Gen.Pre_finite_inputs
import proofs.«171639_j50053548867780_1_alg».proof.Proof.Spec
import proofs.«171639_j50053548867780_1_alg».proof.Proof.KernelRun
import proofs.«171639_j50053548867780_1_alg».proof.Proof.HistArray
import proofs.«171639_j50053548867780_1_alg».proof.Proof.MlpArray
import proofs.«171639_j50053548867780_1_alg».proof.Proof.RefHist
import proofs.«171639_j50053548867780_1_alg».proof.Proof.RefMlp
import Idealize.ShloMosaic.Adequacy
import Idealize.ShloMosaic.Init

noncomputable section

namespace Cert.Proof

open Idealize.ShloMosaic Idealize.ShloMosaic.TcCoe Idealize.SL.Sem Cert.HistSpec

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- What the kernel's result array holds after the run: the dense layers of the normalised count matrix of the image
    argument, with the weights and biases as launched. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W3 (F := Ideal) m ρ c (Proc.devRef .tc Cert.KernelIdeal.main_v2)
      = mlp (hist2 (m ((c.tc : Thread Cert.KernelIdeal.nD Cert.KernelIdeal.τ).loc Cert.KernelIdeal.main_arg0)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  rw [Cert.MlpArray.mlp_arr, Cert.HistArray.hist_arr, Cert.MlpPayload.shapeCast_hist]

/-- What the reference's result term is: the same function of its own arguments. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v40 (F := Ideal) m c
      = mlp (hist2 (m ((c.tc : Thread Cert.ReferenceIdeal.nD Cert.ReferenceIdeal.τ).loc Cert.ReferenceIdeal.main_arg0)))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  rw [Cert.ReferenceIdeal.Read.val_main_v40_eq, Cert.RefMlp.ref_tail, Cert.RefHist.ref_hist]

/-- From memories that agree on the arguments both idealized programs run and end with equal result arrays: each is
    `mlp (hist2 x) W₁ b₁ W₂ b₂` of its own arguments, and the arguments agree. -/
theorem algebraic : Cert.algebraic_KernelIdeal_ReferenceIdeal := by
  intro m ρ m' ρ' _ hagree
  refine ⟨fun c => mlp (hist2 (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [reference_result m' c, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
